-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x256 : Shape := ⟨2, ![512, 256]⟩
abbrev S512x32 : Shape := ⟨2, ![512, 32]⟩
abbrev S512 : Shape := ⟨1, ![512]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S512x32 : S_.BroadcastsInDim S512x32 (![] : Fin 0 → Fin S512x32.rank)
  reducesTo_S512x32_S_d0_1 : S512x32.ReducesTo [0, 1] S_

variable [Facts]

def fn {F : FTy → Type} [FloatOps F] (main_arg0 : FVec F S512x256 .f32) (main_arg1 : FVec F S512x32 .f32) (main_arg2 : IVec S512 32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S512x32 .f32 := Host.absf main_arg1
  let main_cst_0 : FVec F S_ .f32 := constant S_ .f32 0x7F800000#32
  let main_v5 : FVec F S512x32 .f32 := broadcastInDim S512x32 ![] bcast_S_S512x32 main_cst_0
  let main_v6 : IVec S512x32 1 := cmpf .olt main_v4 main_v5
  let main_c_1 : IVec S_ 1 := constantI S_ 1 1#1
  let main_v7 : IVec S_ 1 := (fun x v => Host.reduce IntOp.andi x v reducesTo_S512x32_S_d0_1 h_S_) main_v6 main_c_1
  let main_v8 : IVec S_ 1 := andi main_v3 main_v7
  main_v8
-- ==== Kernel.lean ====
abbrev S512x256 : Shape := ⟨2, ![512, 256]⟩
abbrev S512x32 : Shape := ⟨2, ![512, 32]⟩
abbrev S512 : Shape := ⟨1, ![512]⟩
abbrev S512x512 : Shape := ⟨2, ![512, 512]⟩
abbrev S512x1 : Shape := ⟨2, ![512, 1]⟩
abbrev S1x512 : Shape := ⟨2, ![1, 512]⟩
abbrev S_ : Shape := ⟨0, ![]⟩
abbrev S1x1 : Shape := ⟨2, ![1, 1]⟩
abbrev S64x128 : Shape := ⟨2, ![64, 128]⟩
abbrev S64x128x1 : Shape := ⟨3, ![64, 128, 1]⟩
abbrev S64x1x128 : Shape := ⟨3, ![64, 1, 128]⟩
abbrev S64x128x128 : Shape := ⟨3, ![64, 128, 128]⟩
abbrev S64 : Shape := ⟨1, ![64]⟩
abbrev S1x64 : Shape := ⟨2, ![1, 64]⟩
abbrev S1 : Shape := ⟨1, ![1]⟩

abbrev nBuf : Space → Nat
  | .hbm => 30
  | .vmem => 11
  | .smem => 0
  | _ => 0

abbrev bufTy : (tb : Table) → Fin (tcTables nBuf tb) → BufTy
  | .hbm, ⟨0, _⟩ => ⟨S512x256, .f32⟩
  | .hbm, ⟨1, _⟩ => ⟨S512x32, .f32⟩
  | .hbm, ⟨2, _⟩ => ⟨S512, .i32⟩
  | .hbm, ⟨3, _⟩ => ⟨S512x512, .f32⟩
  | .hbm, ⟨4, _⟩ => ⟨S512x1, .i32⟩
  | .hbm, ⟨5, _⟩ => ⟨S1x512, .i32⟩
  | .hbm, ⟨6, _⟩ => ⟨S512x512, .i32⟩
  | .hbm, ⟨7, _⟩ => ⟨S512x512, .i32⟩
  | .hbm, ⟨8, _⟩ => ⟨S512x512, .i1⟩
  | .hbm, ⟨9, _⟩ => ⟨S512x512, .i32⟩
  | .hbm, ⟨10, _⟩ => ⟨S512x512, .i32⟩
  | .hbm, ⟨11, _⟩ => ⟨S_, .i32⟩
  | .hbm, ⟨12, _⟩ => ⟨S512x512, .i32⟩
  | .hbm, ⟨13, _⟩ => ⟨S512x512, .i32⟩
  | .hbm, ⟨14, _⟩ => ⟨S512x512, .i1⟩
  | .hbm, ⟨15, _⟩ => ⟨S512x512, .i1⟩
  | .hbm, ⟨16, _⟩ => ⟨S512x512, .i1⟩
  | .hbm, ⟨17, _⟩ => ⟨S512x512, .f32⟩
  | .hbm, ⟨18, _⟩ => ⟨S512x512, .i1⟩
  | .hbm, ⟨19, _⟩ => ⟨S512x512, .f32⟩
  | .hbm, ⟨20, _⟩ => ⟨S_, .f32⟩
  | .hbm, ⟨21, _⟩ => ⟨S512, .f32⟩
  | .hbm, ⟨22, _⟩ => ⟨S_, .f32⟩
  | .hbm, ⟨23, _⟩ => ⟨S512, .f32⟩
  | .hbm, ⟨24, _⟩ => ⟨S512, .f32⟩
  | .hbm, ⟨25, _⟩ => ⟨S_, .f32⟩
  | .hbm, ⟨26, _⟩ => ⟨S_, .f32⟩
  | .hbm, ⟨27, _⟩ => ⟨S1x1, .f32⟩
  | .hbm, ⟨28, _⟩ => ⟨S_, .f32⟩
  | .hbm, ⟨29, _⟩ => ⟨S_, .f32⟩
  | .local _ .vmem, ⟨0, _⟩ => ⟨S512x256, .f32⟩
  | .local _ .vmem, ⟨1, _⟩ => ⟨S512x512, .f32⟩
  | .local _ .vmem, ⟨2, _⟩ => ⟨S64x128, .f32⟩
  | .local _ .vmem, ⟨3, _⟩ => ⟨S64x128, .f32⟩
  | .local _ .vmem, ⟨4, _⟩ => ⟨S64x128, .f32⟩
  | .local _ .vmem, ⟨5, _⟩ => ⟨S64x128, .f32⟩
  | .local _ .vmem, ⟨6, _⟩ => ⟨S64x128, .f32⟩
  | .local _ .vmem, ⟨7, _⟩ => ⟨S64x128, .f32⟩
  | .local _ .vmem, ⟨8, _⟩ => ⟨S64x128, .f32⟩
  | .local _ .vmem, ⟨9, _⟩ => ⟨S64x128, .f32⟩
  | .local _ .vmem, ⟨10, _⟩ => ⟨S1x1, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9
abbrev cc1_sem4_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨3, ![8, 4, 4], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S64x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S64x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S64x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S64x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, true]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

class Facts₀ : Prop where
  inb_S512x256_S512x256_0_0 : ∀ a, (![0, 0] : Fin 2 → Nat) a + S512x256.size a ≤ S512x256.size a
  h_S512x256 : 0 < S512x256.numel
  reduces_S512x256_S512 : S512x256.Reduces [1] S512
  shapeCasts_S512_S512x1 : S512.ShapeCasts S512x1
  bitsLt_bf16_f32 : FTy.bits .bf16 < FTy.bits .f32
  transposes_S512x1_p1_0_S1x512 : S512x1.Transposes [1, 0] S1x512
  broadcasts_S512x1_S512x512 : S512x1.Broadcasts S512x512
  broadcasts_S1x512_S512x512 : S1x512.Broadcasts S512x512
  inb_S512x512_S512x512_0_0 : ∀ a, (![0, 0] : Fin 2 → Nat) a + S512x512.size a ≤ S512x512.size a
  h_S512x512 : 0 < S512x512.numel
  bcast_S512_S512x1_0 : S512.BroadcastsInDim S512x1 (![0] : Fin 1 → Fin S512x1.rank)
  bcast_S512_S1x512_1 : S512.BroadcastsInDim S1x512 (![1] : Fin 1 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  bcast_S_S512x512 : S_.BroadcastsInDim S512x512 (![] : Fin 0 → Fin S512x512.rank)
  reducesTo_S512x512_S512_d1 : S512x512.ReducesTo [1] S512
  h_S_ : 0 < S_.numel
  reducesTo_S512_S_d0 : S512.ReducesTo [0] S_
  inb_S1x1_S1x1_0_0 : ∀ a, (![0, 0] : Fin 2 → Nat) a + S1x1.size a ≤ S1x1.size a
  h_S1x1 : 0 < S1x1.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  shapeCasts_S64x128_S64x128x1 : S64x128.ShapeCasts S64x128x1
  shapeCasts_S64x128_S64x1x128 : S64x128.ShapeCasts S64x1x128
  broadcasts_S64x128x1_S64x128x128 : S64x128x1.Broadcasts S64x128x128
  broadcasts_S64x1x128_S64x128x128 : S64x1x128.Broadcasts S64x128x128
  reduces_S64x128x128_S64x128 : S64x128x128.Reduces [2] S64x128
  reduces_S64x128_S64 : S64x128.Reduces [1] S64
  shapeCasts_S64_S1x64 : S64.ShapeCasts S1x64
  reduces_S1x64_S1 : S1x64.Reduces [1] S1
  shapeCasts_S1_S1x1 : S1.ShapeCasts S1x1
  inpos_S1x1_p0_0 : ∀ a, (![0, 0] : Fin 2 → Nat) a < S1x1.size a
  shapeCasts_S1x1_S1x1 : S1x1.ShapeCasts S1x1
  shapeCasts_S1x1_S_ : S1x1.ShapeCasts S_
  dot_S512x256_S512x256_S512x512_1_1_0_0_n_n_wf : DotDims.WF S512x256 S512x256 S512x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S512x256.size a
  hwx0_0 : ∀ i : grid0.Coords, EltTy.bits .f32 = 32 ∨ (Rect.block (s := S512x256) S512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x128.size a ≤ S512x512.size a
  hwx1_0 : ∀ i : grid1.Coords, EltTy.bits .f32 = 32 ∨ (Rect.block (s := S512x512) S64x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S512x512.size a
  hwx1_1 : ∀ i : grid1.Coords, EltTy.bits .f32 = 32 ∨ (Rect.block (s := S512x512) S64x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S512x512.size a
  hwx1_2 : ∀ i : grid1.Coords, EltTy.bits .f32 = 32 ∨ (Rect.block (s := S512x512) S64x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S512x512.size a
  hwx1_3 : ∀ i : grid1.Coords, EltTy.bits .f32 = 32 ∨ (Rect.block (s := S512x512) S64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)

variable [Facts₀]

def dot_S512x256_S512x256_S512x512_1_1_0_0_n_n : DotDims S512x256 S512x256 S512x512 where
  lhsContracting := [1]
  rhsContracting := [1]
  lhsNonContracting := [0]
  rhsNonContracting := [0]
  lhsBatch := []
  rhsBatch := []
  wf := dot_S512x256_S512x256_S512x512_1_1_0_0_n_n_wf

abbrev win0_0 : Pipeline.Window sig grid0 :=
  Pipeline.Window.ofSpec (Memref.whole main_arg0) S512x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S64x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S64x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S64x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S64x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v20) S1x1.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S512x256 : Shape := ⟨2, ![512, 256]⟩
abbrev S512x32 : Shape := ⟨2, ![512, 32]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S256x512 : Shape := ⟨2, ![256, 512]⟩
abbrev S512x512x1 : Shape := ⟨3, ![512, 512, 1]⟩
abbrev S512x1x512 : Shape := ⟨3, ![512, 1, 512]⟩
abbrev S512x512x512 : Shape := ⟨3, ![512, 512, 512]⟩

abbrev nBuf : Space → Nat
  | .hbm => 67
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512x32, .f32⟩
  | .hbm, ⟨2, _⟩ => ⟨S512, .i32⟩
  | .hbm, ⟨3, _⟩ => ⟨S512x256, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S1x512, .f32⟩
  | .hbm, ⟨8, _⟩ => ⟨S512x512, .f32⟩
  | .hbm, ⟨9, _⟩ => ⟨S512x512, .f32⟩
  | .hbm, ⟨10, _⟩ => ⟨S512x512, .f32⟩
  | .hbm, ⟨11, _⟩ => ⟨S256x512, .f32⟩
  | .hbm, ⟨12, _⟩ => ⟨S512x512, .f32⟩
  | .hbm, ⟨13, _⟩ => ⟨S_, .f32⟩
  | .hbm, ⟨14, _⟩ => ⟨S512x512, .f32⟩
  | .hbm, ⟨15, _⟩ => ⟨S512x512, .f32⟩
  | .hbm, ⟨16, _⟩ => ⟨S512x512, .f32⟩
  | .hbm, ⟨17, _⟩ => ⟨S_, .f32⟩
  | .hbm, ⟨18, _⟩ => ⟨S512x512, .f32⟩
  | .hbm, ⟨19, _⟩ => ⟨S512x512, .f32⟩
  | .hbm, ⟨20, _⟩ => ⟨S512x512, .f32⟩
  | .hbm, ⟨21, _⟩ => ⟨S512x1, .i32⟩
  | .hbm, ⟨22, _⟩ => ⟨S1x512, .i32⟩
  | .hbm, ⟨23, _⟩ => ⟨S512x512, .i32⟩
  | .hbm, ⟨24, _⟩ => ⟨S512x512, .i32⟩
  | .hbm, ⟨25, _⟩ => ⟨S512x512, .i1⟩
  | .hbm, ⟨26, _⟩ => ⟨S512x512, .i32⟩
  | .hbm, ⟨27, _⟩ => ⟨S512x512, .i32⟩
  | .hbm, ⟨28, _⟩ => ⟨S_, .i32⟩
  | .hbm, ⟨29, _⟩ => ⟨S512x512, .i32⟩
  | .hbm, ⟨30, _⟩ => ⟨S512x512, .i32⟩
  | .hbm, ⟨31, _⟩ => ⟨S512x512, .i1⟩
  | .hbm, ⟨32, _⟩ => ⟨S512x512, .i1⟩
  | .hbm, ⟨33, _⟩ => ⟨S512x512, .i1⟩
  | .hbm, ⟨34, _⟩ => ⟨S512x512, .i1⟩
  | .hbm, ⟨35, _⟩ => ⟨S512x512x1, .i1⟩
  | .hbm, ⟨36, _⟩ => ⟨S512x1x512, .i1⟩
  | .hbm, ⟨37, _⟩ => ⟨S512x512x512, .i1⟩
  | .hbm, ⟨38, _⟩ => ⟨S512x512x512, .i1⟩
  | .hbm, ⟨39, _⟩ => ⟨S512x512x512, .i1⟩
  | .hbm, ⟨40, _⟩ => ⟨S512x512x1, .f32⟩
  | .hbm, ⟨41, _⟩ => ⟨S512x1x512, .f32⟩
  | .hbm, ⟨42, _⟩ => ⟨S512x512x512, .f32⟩
  | .hbm, ⟨43, _⟩ => ⟨S512x512x512, .f32⟩
  | .hbm, ⟨44, _⟩ => ⟨S512x512x512, .f32⟩
  | .hbm, ⟨45, _⟩ => ⟨S_, .f32⟩
  | .hbm, ⟨46, _⟩ => ⟨S512x512x512, .f32⟩
  | .hbm, ⟨47, _⟩ => ⟨S512x512x512, .f32⟩
  | .hbm, ⟨48, _⟩ => ⟨S512x512x512, .f32⟩
  | .hbm, ⟨49, _⟩ => ⟨S512x512x512, .f32⟩
  | .hbm, ⟨50, _⟩ => ⟨S_, .f32⟩
  | .hbm, ⟨51, _⟩ => ⟨S512x512x512, .f32⟩
  | .hbm, ⟨52, _⟩ => ⟨S512x512x512, .f32⟩
  | .hbm, ⟨53, _⟩ => ⟨S_, .f32⟩
  | .hbm, ⟨54, _⟩ => ⟨S512x512x512, .f32⟩
  | .hbm, ⟨55, _⟩ => ⟨S512x512x512, .f32⟩
  | .hbm, ⟨56, _⟩ => ⟨S_, .f32⟩
  | .hbm, ⟨57, _⟩ => ⟨S_, .f32⟩
  | .hbm, ⟨58, _⟩ => ⟨S512x512x512, .f32⟩
  | .hbm, ⟨59, _⟩ => ⟨S512x512x512, .f32⟩
  | .hbm, ⟨60, _⟩ => ⟨S_, .f32⟩
  | .hbm, ⟨61, _⟩ => ⟨S_, .f32⟩
  | .hbm, ⟨62, _⟩ => ⟨S512x512x512, .i32⟩
  | .hbm, ⟨63, _⟩ => ⟨S_, .i32⟩
  | .hbm, ⟨64, _⟩ => ⟨S_, .i32⟩
  | .hbm, ⟨65, _⟩ => ⟨S_, .f32⟩
  | .hbm, ⟨66, _⟩ => ⟨S_, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_c : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_2 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_cst_3 : Ref sig .tc := ⟨.hbm, 50, rfl⟩
abbrev main_v42 : Ref sig .tc := ⟨.hbm, 51, rfl⟩
abbrev main_v43 : Ref sig .tc := ⟨.hbm, 52, rfl⟩
abbrev main_cst_4 : Ref sig .tc := ⟨.hbm, 53, rfl⟩
abbrev main_v44 : Ref sig .tc := ⟨.hbm, 54, rfl⟩
abbrev main_v45 : Ref sig .tc := ⟨.hbm, 55, rfl⟩
abbrev main_cst_5 : Ref sig .tc := ⟨.hbm, 56, rfl⟩
abbrev main_call0_v0 : Ref sig .tc := ⟨.hbm, 57, rfl⟩
abbrev main_call0_v1 : Ref sig .tc := ⟨.hbm, 58, rfl⟩
abbrev main_v46 : Ref sig .tc := ⟨.hbm, 59, rfl⟩
abbrev main_cst_6 : Ref sig .tc := ⟨.hbm, 60, rfl⟩
abbrev main_v47 : Ref sig .tc := ⟨.hbm, 61, rfl⟩
abbrev main_v48 : Ref sig .tc := ⟨.hbm, 62, rfl⟩
abbrev main_c_7 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩

abbrev nD : Nat := 1
abbrev τ : Topo := Topo.v7x

variable {F : FTy → Type} [FloatOps F]

class Facts₀ : Prop where
  reducesTo_S512x256_S512_d1 : S512x256.ReducesTo [1] S512
  h_S_ : 0 < S_.numel
  bcast_S512_S512x1_0 : S512.BroadcastsInDim S512x1 (![0] : Fin 1 → Fin S512x1.rank)
  bcast_S512_S1x512_1 : S512.BroadcastsInDim S1x512 (![1] : Fin 1 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  transposes_S512x256_S256x512_1_0 : S512x256.Transposes [1, 0] S256x512
  bcast_S_S512x512 : S_.BroadcastsInDim S512x512 (![] : Fin 0 → Fin S512x512.rank)
  bcast_S512x512_S512x512x1_0_1 : S512x512.BroadcastsInDim S512x512x1 (![0, 1] : Fin 2 → Fin S512x512x1.rank)
  bcast_S512x512_S512x1x512_0_2 : S512x512.BroadcastsInDim S512x1x512 (![0, 2] : Fin 2 → Fin S512x1x512.rank)
  bcast_S512x512x1_S512x512x512_0_1_2 : S512x512x1.BroadcastsInDim S512x512x512 (![0, 1, 2] : Fin 3 → Fin S512x512x512.rank)
  bcast_S512x1x512_S512x512x512_0_1_2 : S512x1x512.BroadcastsInDim S512x512x512 (![0, 1, 2] : Fin 3 → Fin S512x512x512.rank)
  bcast_S_S512x512x512 : S_.BroadcastsInDim S512x512x512 (![] : Fin 0 → Fin S512x512x512.rank)
  reducesTo_S512x512x512_S_d0_1_2 : S512x512x512.ReducesTo [0, 1, 2] S_
  natLt_1_32 : 1 < 32
  dot_S512x256_S256x512_S512x512_1_0_0_1_n_n_wf : DotDims.WF S512x256 S256x512 S512x512 [1] [0] [0] [1] [] []

variable [Facts₀]

def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf

class Facts : Prop extends Facts₀ where

variable [Facts]
-- ==== Proof.K.Region0.lean ====
/-
  The distance kernel (the first pallas_call) as one pipeline region, at any contents `V` of the
  TensorCore's buffers when the region is entered: its one grid point loads the whole feature matrix,
  computes the distance matrix and stores it whole.
-/
import proofs.«134549_j42193758716072_1_alg».proof.Proof.Gen.Kernel.Launch
import proofs.«134549_j42193758716072_1_alg».proof.Proof.Gen.Kernel.Skeleton
import proofs.«134549_j42193758716072_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point, fetched there or not, for any proof data
    whose array is the entry contents and whose body leaves the block in place. -/
theorem pdist_feat_before_of {c : Dev nD} (dat : Dat τ (Elt F) Unit ℕ (UR sig nD τ) ℕ cfg0 c)
    (hA : dat.A 0 = V c (Pipeline.arrRef spec0 0)) (hafter : ∀ t, dat.after 0 t = iblk0 V c 0 t)
    (t : Fin cfg0.N) (d) : dat.before 0 t d = iblk0 V c 0 t :=
  (dat.before_in_eq_fetched 0 rfl (fun _ => rfl) (fun _ _ _ => rfl)
      (fun t => by rw [hafter]; unfold Dat.blockOf iblk0; rw [hA]; try rfl) t d).trans
    (by unfold Dat.fetched Dat.blockOf iblk0; rw [hA]; try rfl)

/-- The whole 512x256 feature buffer, as the rectangle the body loads through. -/
abbrev pdistFeatRect : Rect S512x256 := Rect.unit (s := S512x256) ![0, 0] S512x256.size inb_S512x256_S512x256_0_0

/-- The whole 512x512 distance buffer, as the rectangle the body loads and stores through. -/
abbrev pdistDistRect : Rect S512x512 := Rect.unit (s := S512x512) ![0, 0] S512x512.size inb_S512x512_S512x512_0_0

omit [FloatOps F] in
/-- Both rectangles sit at offset zero on each of their two axes. -/
theorem pdist_origin : (![0, 0] : Fin 2 → Nat) = fun _ => 0 := funext fun a => by fin_cases a <;> rfl

/-- What the body leaves in the output window's staging buffer, from the input block. -/
def out0_1 (x0 : Vec F S512x256 .f32) : Vec F S512x512 .f32 :=
  View.canon [⟨pdistDistRect, k0_pay1 (View.ld x0 pdistFeatRect)⟩]

/-- The one store is through the whole distance buffer, so it covers every index. -/
theorem pdist_covered (p : Vec F S512x512 .f32) (y : S512x512.Idx) :
    ∃ pc ∈ ([⟨pdistDistRect, p⟩] : List (View.Piece (Elt F) S512x512 .f32)), y ∈ pc.1.set :=
  ⟨_, List.mem_singleton_self _, View.mem_set_unit_zero pdist_origin inb_S512x512_S512x512_0_0 y⟩

/-- The output staging buffer after the body holds the distance payload of the whole input block. -/
theorem out0_1_eq (x0 : Vec F S512x256 .f32) : out0_1 x0 = k0_pay1 x0 := by
  unfold out0_1
  rw [View.canon_unit_zero pdist_origin, View.ld_unit_zero pdist_origin]

set_option maxHeartbeats 1000000 in
/-- The distance kernel on whole staging memrefs, the feature buffer at contents x0 and the distance buffer at
    anything, runs to the continuation with the feature buffer as it was and the distance buffer at out0_1 x0. -/
theorem pdist_triple (c : Dev nD) (E : Set ℕ) (i : grid0.Coords)
    (feat : Memref sig .tc .vmem S512x256 .f32) (hfeat : feat.IsWhole)
    (dist : Memref sig .tc .vmem S512x512 .f32) (hdist : dist.IsWhole)
    (x0 : Vec F S512x256 .f32) (K : PUnit → sProp 𝕄) :
    iprop(owns (c : Thread nD τ) feat fullShare x0 ∗ (∃ d, owns (c : Thread nD τ) dist fullShare d)
        ∗ (iprop(owns (c : Thread nD τ) feat fullShare x0 ∗ owns (c : Thread nD τ) dist fullShare (out0_1 x0)) -∗ K ⟨⟩))
      ⊢ wp frame (wpE (defs₀ (F := F)) Variants.none c none) E (cc0__pdist_kernel i feat hfeat dist hdist) K := by
  simp only [cc0__pdist_kernel_eq_skeleton]; unfold cc0__pdist_kernel_skel
  unfold owns
  iintro ⟨⟨%g, %hg, Hfeat⟩, ⟨%d, %h, -, Hdist⟩, Hk⟩
  subst hg
  sl_exec
  sl_step
  iapply Hk
  isplitl [Hfeat]
  · iexists g; isplitr; · ipureintro; rfl
    iexact Hfeat
  iexists _; isplitr
  swap; · iexact Hdist
  ipureintro
  exact View.read_writes_eq_canon _ _ _ (pdist_covered _)

/-- The region's proof data. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The feature window's staging buffer holds the feature block when the body is entered. -/
theorem pdist_feat_before (c : Dev nD) (t : Fin cfg0.N) (d) : (dat0 V c).before 0 t d = iblk0 V c 0 t :=
  pdist_feat_before_of V (dat0 V c) (A_eq0 V c 0) (after0_0 V c) t d

/-- What the body is entered with at point t: the invariant, nothing owed, and the two staging buffers. -/
def pdistPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- What it returns: the same invariant, and the staging buffers at what the proof data says. -/
def pdistPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the feature buffer holds its block, so the kernel's triple applies; the invariant and
    what is owed pass through untouched. -/
theorem pdist_body (c : Dev nD) (t : Fin cfg0.N) :
    pdistPre V c t ⊢ wp frame (wpE (defs₀ (F := F)) Variants.none c none) Set.univ (bodyAt0 t) (fun _ => pdistPost V c t) := by
  unfold pdistPre pdistPost bodyAt0
  simp only [pdist_feat_before]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, Hfeat⟩, ⟨%d1, Hdist⟩⟩
  iapply (pdist_triple c Set.univ _ _ _ _ _ (iblk0 V c 0 t) _)
  isplitl [Hfeat]; · iexact Hfeat
  isplitl [Hdist]; · iexists _; iexact Hdist
  iintro ⟨Hfeat, Hdist⟩
  isplitl [HΦ]; · iexact HΦ
  isplitl [Ho]; · iexact Ho
  isplitl [Hfeat]; · iexact Hfeat
  iexact Hdist

/-- The body obligation at every point. -/
theorem body_obligation0 (c : Dev nD) : BodyObligation (dat0 (F := F) V c) (defs₀ (F := F)) Variants.none () Set.univ := fun t => by
  rw [bigSep_W0, bigSep_W0]
  exact pdist_body V c t

end

end Cert.Kernel.Hand

end
-- ==== Proof.K.Region1Runs.lean ====
/-
  The triplet kernel's body (the second pallas_call) on whole staging memrefs, in its two control cases.
  The body has one conditional, taken at the first of the 128 grid points only: there it stores the zero
  block into the (1,1) output buffer. At every point it then loads the four (64,128) input blocks, loads
  the output buffer back, and stores into it the sum of what it loaded and the block's sum over the four
  inputs. Every store is of the whole (1,1) block, so the last one alone decides what the buffer holds:
  at the first point the zero block plus the point's sum (case A), at a later point what the buffer held
  plus the point's sum (case B).
-/
import proofs.«134549_j42193758716072_1_alg».proof.Proof.Gen.Kernel.Launch
import proofs.«134549_j42193758716072_1_alg».proof.Proof.Gen.Kernel.Skeleton
import proofs.«134549_j42193758716072_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's one conditional -/

/-- The condition of the body's one conditional, from the grid coordinates (the scalar chain
    substituted): all three coordinates are zero. -/
abbrev cond1_0 (i : grid1.Coords) : Prop :=
  (Scalar.cmpi .ne (Scalar.extui (Scalar.andi (Scalar.andi (Scalar.cmpi .eq (BitVec.ofNat 32 (i 0).val) 0#32) (Scalar.cmpi .eq (BitVec.ofNat 32 (i 1).val) 0#32)) (Scalar.cmpi .eq (BitVec.ofNat 32 (i 2).val) 0#32))) 0#32) = 1#1

/-- It holds at the first of the 128 points only: decided over the grid. -/
theorem hcond1_0 : ∀ t : Fin cfg1.N, cond1_0 (grid1.coords t) ↔ t.val = 0 :=
  (by decide +kernel : ∀ t : Fin grid1.N, cond1_0 (grid1.coords t) ↔ t.val = 0)

/-! ## Whole-buffer loads and stores -/

/-- The offsets of every load and store of the body are zero. -/
theorem hz2 : (![0, 0] : Fin 2 → Nat) = fun _ => 0 := funext fun a => by fin_cases a <;> rfl

/-- A last store of the whole one-entry block decides what the buffer reads, whatever was stored
    before it and whatever the buffer held. -/
theorem read_writes_last1x1 {sg : RefSig} {κ : Kind} {sp : Space} (v : View sg κ sp S1x1 .f32) (f : v.ty.Contents (Elt F))
    (w : Vec F S1x1 .f32) (L : List (View.Piece (Elt F) S1x1 .f32)) :
    v.read (Elt F) (v.writes (Elt F) f (⟨Rect.unit ![0, 0] S1x1.size inb_S1x1_S1x1_0_0, w⟩ :: L)) = w :=
  (View.read_writes_eq_canon v f _ (fun y => ⟨_, List.mem_cons_self, View.mem_set_unit_zero (S := S1x1) hz2 inb_S1x1_S1x1_0_0 y⟩)).trans
    (View.canon_cons_unit_zero (S := S1x1) hz2 inb_S1x1_S1x1_0_0 w L)

/-! ## What the body leaves in the output block, case by case -/

/-- At the first point: the zero block, read back, plus the sum over the point's four input blocks. -/
def out1_A (x0 x1 x2 x3 : Vec F S64x128 .f32) : Vec F S1x1 .f32 :=
  k1_pay1 (k1_pay3 (k1_pay2 (F := F))) (k1_pay4 x0 x1 x2 x3)

/-- At every later point: what the point before left, `prev`, plus the sum over the point's four input blocks. -/
def out1_B (x0 x1 x2 x3 : Vec F S64x128 .f32) (prev : Vec F S1x1 .f32) : Vec F S1x1 .f32 :=
  k1_pay1 (k1_pay3 prev) (k1_pay4 x0 x1 x2 x3)

/-! ## The body's triple, case by case -/

set_option maxHeartbeats 1000000 in
/-- CASE A (the conditional taken: the first point). On whole staging memrefs, the four inputs' at
    contents `x0 … x3` and the output's at anything, the body runs to the continuation holding the inputs'
    as they were and the output's at `out1_A`: it stores the zero block, loads the four input blocks,
    loads the output block (the zero block back), and stores the sum of the two; that last store is of the
    whole block, so it alone decides the contents. -/
theorem sound_kernel1_A (c : Dev nD) (E : Set ℕ) (i : grid1.Coords) (arg3 : Memref sig .tc .vmem S64x128 .f32) (harg3 : arg3.IsWhole) (arg4 : Memref sig .tc .vmem S64x128 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S1x1 .f32) (harg7 : arg7.IsWhole) (hc0 : cond1_0 i)
    (x0 x1 x2 x3 : Vec F S64x128 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (out1_A x0 x1 x2 x3)) -∗ K ⟨⟩))
      ⊢ wp frame (wpE (defs₀ (F := F)) Variants.none c none) E (cc1__triplet_kernel i arg3 harg3 arg4 harg4 arg5 harg5 arg6 harg6 arg7 harg7) K := by
  simp only [cc1__triplet_kernel_eq_skeleton]; unfold cc1__triplet_kernel_skel
  simp only [k1_part1_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg3.eq_unread hf0; obtain rfl := harg4.eq_unread hf1; obtain rfl := harg5.eq_unread hf2; obtain rfl := harg6.eq_unread hf3
  sl_exec (disch := first | exact hc0)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; isplitr
  swap; · iexact H4
  ipureintro
  refine (read_writes_last1x1 _ _ _ _).trans ?_
  sl_unfold_words
  rw [View.readCov_unit_zero (S := S1x1) _ hz2]
  simp only [View.readAt_eq_ld, harg3.read_unread, harg4.read_unread, harg5.read_unread, harg6.read_unread, View.ld_unit_zero (S := S64x128) hz2]
  rfl

set_option maxHeartbeats 1000000 in
/-- CASE B (the conditional not taken: every later point). The same, the output's memref at the contents
    `prev` the point before left: the body loads the four input blocks, loads the output block (`prev`), and
    stores the sum of the two, whole. -/
theorem sound_kernel1_B (c : Dev nD) (E : Set ℕ) (i : grid1.Coords) (arg3 : Memref sig .tc .vmem S64x128 .f32) (harg3 : arg3.IsWhole) (arg4 : Memref sig .tc .vmem S64x128 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S1x1 .f32) (harg7 : arg7.IsWhole) (hc0 : ¬cond1_0 i)
    (x0 x1 x2 x3 : Vec F S64x128 .f32) (prev : Vec F S1x1 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare prev
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (out1_B x0 x1 x2 x3 prev)) -∗ K ⟨⟩))
      ⊢ wp frame (wpE (defs₀ (F := F)) Variants.none c none) E (cc1__triplet_kernel i arg3 harg3 arg4 harg4 arg5 harg5 arg6 harg6 arg7 harg7) K := by
  simp only [cc1__triplet_kernel_eq_skeleton]; unfold cc1__triplet_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg3.eq_unread hf0; obtain rfl := harg4.eq_unread hf1; obtain rfl := harg5.eq_unread hf2; obtain rfl := harg6.eq_unread hf3
  obtain rfl := harg7.eq_unread hf4
  sl_exec (disch := first | exact hc0)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; isplitr
  swap; · iexact H4
  ipureintro
  refine (read_writes_last1x1 _ _ _ _).trans ?_
  sl_unfold_words
  simp only [View.readAt_eq_ld, harg3.read_unread, harg4.read_unread, harg5.read_unread, harg6.read_unread, harg7.read_unread, View.ld_unit_zero (S := S64x128) hz2, View.ld_unit_zero (S := S1x1) hz2]
  rfl

end Cert.Kernel.Hand

end
-- ==== Proof.K.Region1.lean ====
/-
  The triplet kernel (the second pallas_call) as one pipeline region of 128 grid points, at any contents
  `V` of the TensorCore's buffers when the region is entered: the (1,1) output block is reset at the
  first point and every point adds its block's sum to it; it is written back once, after the last point.
-/
import proofs.«134549_j42193758716072_1_alg».proof.Proof.Gen.Kernel.Launch
import proofs.«134549_j42193758716072_1_alg».proof.Proof.Gen.Kernel.Skeleton
import proofs.«134549_j42193758716072_1_alg».proof.Proof.Gen.Kernel.Points
import proofs.«134549_j42193758716072_1_alg».proof.Proof.K.Region1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the output block's staging buffer holds after the body at position `n`: THE ACCUMULATION. After
    the first point, the zero block plus that point's sum; after point `n + 1`, what point `n` left plus
    point `n + 1`'s sum (the buffer is not written back between points). -/
def outsAt1 (c : Dev nD) : (n : ℕ) → n < cfg1.N → Vec F S1x1 .f32
  | 0, hn => out1_A (iblk1 V c 0 ⟨0, hn⟩) (iblk1 V c 1 ⟨0, hn⟩) (iblk1 V c 2 ⟨0, hn⟩) (iblk1 V c 3 ⟨0, hn⟩)
  | n + 1, hn => out1_B (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn))

/-- The shares the windows hold their arrays at: the distance matrix is read through two windows, half each. -/
def q1 : Fin cfg1.W → PosShare TreeShare
  | ⟨0, _⟩ => fullShare.left
  | ⟨1, _⟩ => fullShare.right
  | _ => fullShare

/-- The region's proof data. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outsAt1 V c t.val t.isLt
  Φ _ := Pipeline.ΦA spec1 c
  q := q1
  owed _ := 0

theorem A_eq1 (c : Dev nD) (w : Fin cfg1.W) : (dat1 V c).A w = V c (Pipeline.arrRef spec1 w) := by
  dsimp only [dat1]
/-- What the body leaves, window by window: each input's buffer at its block, the output's at the accumulation. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outsAt1 V c t.val t.isLt := by dsimp only [dat1]

/-! ## The accumulation, case by case and as equations over the payloads -/

/-- At the first point. -/
theorem outsAt1_A (c : Dev nD) (t : Fin cfg1.N) (h0 : t.val = 0) :
    outsAt1 V c t.val t.isLt = out1_A (iblk1 V c 0 t) (iblk1 V c 1 t) (iblk1 V c 2 t) (iblk1 V c 3 t) := by
  obtain ⟨n, hn⟩ := t
  cases n with
  | zero => rfl
  | succ n => exact absurd h0 (Nat.succ_ne_zero n)

/-- At a later point: over what the point before left. -/
theorem outsAt1_B (c : Dev nD) (t : Fin cfg1.N) (h0 : ¬t.val = 0) :
    outsAt1 V c t.val t.isLt = out1_B (iblk1 V c 0 t) (iblk1 V c 1 t) (iblk1 V c 2 t) (iblk1 V c 3 t) (outsAt1 V c (t.val - 1) (Nat.lt_of_le_of_lt (Nat.sub_le _ _) t.isLt)) := by
  obtain ⟨n, hn⟩ := t
  cases n with
  | zero => exact absurd rfl h0
  | succ n => rfl

/-- After the first point: the zero block, read back, plus the first point's sum. -/
theorem outsAt1_zero (c : Dev nD) (h0 : 0 < cfg1.N) : outsAt1 V c 0 h0 = k1_pay1 (k1_pay3 (k1_pay2 (F := F))) (k1_pay4 (iblk1 V c 0 ⟨0, h0⟩) (iblk1 V c 1 ⟨0, h0⟩) (iblk1 V c 2 ⟨0, h0⟩) (iblk1 V c 3 ⟨0, h0⟩)) := rfl

/-- After point `n + 1`: what point `n` left, read back, plus point `n + 1`'s sum. -/
theorem outsAt1_succ (c : Dev nD) (n : ℕ) (hn : n + 1 < cfg1.N) : outsAt1 V c (n + 1) hn = k1_pay1 (k1_pay3 (outsAt1 V c n (Nat.lt_of_succ_lt hn))) (k1_pay4 (iblk1 V c 0 ⟨n + 1, hn⟩) (iblk1 V c 1 ⟨n + 1, hn⟩) (iblk1 V c 2 ⟨n + 1, hn⟩) (iblk1 V c 3 ⟨n + 1, hn⟩)) := rfl

/-! ## What the staging buffers hold when the body is called -/

/-- Each input window's current staging buffer holds its block at every point, fetched there or not (windows 0
    and 2 are fetched at every fourth point only: between, their block index has not moved). -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- At a later point the output's staging buffer holds what the body left at the point before: the window has one
    buffer, is live at every point, and is written back after the last point only. -/
theorem before1_4_B (c : Dev nD) (t : Fin cfg1.N) (h0 : ¬t.val = 0) (d) :
    (dat1 V c).before 4 t d = outsAt1 V c (t.val - 1) (Nat.lt_of_le_of_lt (Nat.sub_le _ _) t.isLt) := by
  have hN : t.val < 128 := lt_of_lt_of_eq t.isLt (show cfg1.N = 128 from N_1)
  rw [Dat.before_out_kept _ 4 rfl t h0 (Bool.eq_false_iff.mpr fun h => by have := (flush1_4 _).mp h; dsimp only at this; omega)
    (fun _ => rfl) (fun _ _ => rfl)]
  exact after1_4 V c _

/-! ## The body obligation, at a generic point -/

/-- Each window's current staging memref at point `t`, spelled as the pipeline passes it to the body. -/
abbrev ms1_0 (t : Fin cfg1.N) : Memref sig .tc .vmem S64x128 .f32 := win1_0.stage (cfg1.slots t 0)
abbrev ms1_1 (t : Fin cfg1.N) : Memref sig .tc .vmem S64x128 .f32 := win1_1.stage (cfg1.slots t 1)
abbrev ms1_2 (t : Fin cfg1.N) : Memref sig .tc .vmem S64x128 .f32 := win1_2.stage (cfg1.slots t 2)
abbrev ms1_3 (t : Fin cfg1.N) : Memref sig .tc .vmem S64x128 .f32 := win1_3.stage (cfg1.slots t 3)
abbrev ms1_4 (t : Fin cfg1.N) : Memref sig .tc .vmem S1x1 .f32 := win1_4.stage (cfg1.slots t 4)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 800000 in
/-- The body at any point. The inputs' memrefs hold their blocks; the point is the first or a later one; at the
    first the body resets the output block before adding to it (case A), at a later one the output's memref holds
    what the point before left and the body adds to that (case B). The invariant passes through unread and the core
    owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  by_cases h0 : t.val = 0
  · rw [outsAt1_A V c t h0]
    iintro ⟨HΦ, Ho, ⟨%d0, H0⟩, ⟨%d1, H1⟩, ⟨%d2, H2⟩, ⟨%d3, H3⟩, ⟨%d4, H4⟩⟩
    iapply (sound_kernel1_A c Set.univ (grid1.coords t) _ _ _ _ _ _ _ _ _ _ ((hcond1_0 t).mpr h0) (iblk1 V c 0 t) (iblk1 V c 1 t) (iblk1 V c 2 t) (iblk1 V c 3 t) _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [outsAt1_B V c t h0]
    simp only [before1_4_B V c t h0]
    iintro ⟨HΦ, Ho, ⟨%d0, H0⟩, ⟨%d1, H1⟩, ⟨%d2, H2⟩, ⟨%d3, H3⟩, ⟨%d4, H4⟩⟩
    iapply (sound_kernel1_B c Set.univ (grid1.coords t) _ _ _ _ _ _ _ _ _ _ (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The body obligation at every point. -/
theorem body_obligation1 (c : Dev nD) : BodyObligation (dat1 (F := F) V c) (defs₀ (F := F)) Variants.none () Set.univ := fun t => by
  rw [bigSep_W1, bigSep_W1]
  exact sound_body1 V c t

end

end Cert.Kernel.Hand

end
-- ==== Proof.K.Run.lean ====
/-
  The whole program's run: the distance kernel's region, the host stretch that builds the two masks and
  the count, the triplet kernel's region, and the closing reshape and division, composed segment by segment.
  Between two segments every unscoped buffer of the core is held at contents named here: the launch memory,
  then the distance matrix written, then the host stretch applied, then the accumulated total written, then
  the closing stretch applied. The distance matrix is read by the triplet kernel through two windows, so on
  entering that region its buffer is split into two half shares and joined again on leaving it.
-/
import proofs.«134549_j42193758716072_1_alg».proof.Proof.Gen.Kernel.Regions
import proofs.«134549_j42193758716072_1_alg».proof.Proof.K.Region0
import proofs.«134549_j42193758716072_1_alg».proof.Proof.K.Region1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- Core `c`'s buffers at launch (the distance kernel's region is entered from them). -/
abbrev W0 : Dev nD → Valuation τ sig (Elt F) := fun c b => m (c, b)
/-- The same read at the TensorCore's references. -/
abbrev Ve0 : (c : Dev nD) → (b : Ref sig .tc) → Buf (Elt F) ((c : Thread nD τ).loc b) := fun c b => W0 m c b
/-- After the distance kernel: the distance matrix at what the region leaves in it. -/
def W1 (c : Dev nD) : Valuation τ sig (Elt F) :=
  Function.update (W0 m c) main_v0 ((dat0 (Ve0 m) c).arrAt 1 cfg0.N)
abbrev Ve1 : (c : Dev nD) → (b : Ref sig .tc) → Buf (Elt F) ((c : Thread nD τ).loc b) := fun c b => W1 m c b
/-- After the host stretch that builds the masks and the count. -/
abbrev W2 : Dev nD → Valuation τ sig (Elt F) := fun c => StableHlo.after hostOps1 (W1 m c)
abbrev Ve2 : (c : Dev nD) → (b : Ref sig .tc) → Buf (Elt F) ((c : Thread nD τ).loc b) := fun c b => W2 m c b
/-- After the triplet kernel: the 1x1 total at what the region leaves in it. -/
def W3 (c : Dev nD) : Valuation τ sig (Elt F) :=
  Function.update (W2 m c) main_v20 ((dat1 (Ve2 m) c).arrAt 4 cfg1.N)
abbrev Ve3 : (c : Dev nD) → (b : Ref sig .tc) → Buf (Elt F) ((c : Thread nD τ).loc b) := fun c b => W3 m c b
/-- After the closing reshape and division. -/
abbrev W4 : Dev nD → Valuation τ sig (Elt F) := fun c => StableHlo.after hostOps2 (W3 m c)

theorem W1_v0 (c : Dev nD) : W1 m c (Proc.devRef .tc main_v0) = (dat0 (Ve0 m) c).arrAt 1 cfg0.N := by
  unfold W1; exact Function.update_self ..
theorem W1_of_ne (c : Dev nD) (b : Ref sig .tc) (hb : b ≠ main_v0) : W1 m c (Proc.devRef .tc b) = W0 m c (Proc.devRef .tc b) := by
  unfold W1; exact Function.update_of_ne (StableHlo.devRef_ne_of_ne hb) ..
theorem W3_v20 (c : Dev nD) : W3 m c (Proc.devRef .tc main_v20) = (dat1 (Ve2 m) c).arrAt 4 cfg1.N := by
  unfold W3; exact Function.update_self ..
theorem W3_of_ne (c : Dev nD) (b : Ref sig .tc) (hb : b ≠ main_v20) : W3 m c (Proc.devRef .tc b) = W2 m c (Proc.devRef .tc b) := by
  unfold W3; exact Function.update_of_ne (StableHlo.devRef_ne_of_ne hb) ..

/-! ## The proof data family and what rides beside the buffers -/

/-- No pipeline has a prefetched table. -/
abbrev adm' : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm' p) c
  | ⟨0, _⟩ => fun c => dat0 (Ve0 m) c
  | ⟨1, _⟩ => fun c => dat1 (Ve2 m) c
abbrev 𝒱₀ : Variants := Variants.none
abbrev L : GSem nD τ sig → Finset Unit := fun _ => ∅
abbrev lv : GSem nD τ sig → Unit → ℕ := fun _ _ => 0
/-- Beside the buffers: the core's generator register at some state, and the core owing nothing. -/
abbrev R (c : Dev nD) : sProp 𝕄 := iprop((∃ r, prngReg c r) ∗ ∃ W, owes (c : Thread nD τ) (0 : CellTallies nD τ sig Unit) W)

/-- A host stretch as a segment over all the core's unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The distance kernel's region -/

theorem hF0 (c : Dev nD) (w : Fin cfg0.W) : (dat0 (Ve0 m) c).arrAt w cfg0.N = Ve1 m c (Pipeline.arrRef spec0 w) := by
  match w with
  | ⟨0, _⟩ => exact ((dat0 (Ve0 m) c).arrAt_in 0 rfl _).trans ((A_eq0 (Ve0 m) c 0).trans (W1_of_ne m c main_arg0 (by decide)).symm)
  | ⟨1, _⟩ => exact (W1_v0 m c).symm
theorem hrest0 (c : Dev nD) : ∀ b, b ∉ Finset.univ.image (Pipeline.arrRef spec0) → Ve1 m c b = Ve0 m c b :=
  fun b hb => W1_of_ne m c b fun e => hb (Finset.mem_image.mpr ⟨1, Finset.mem_univ _, e.symm⟩)

set_option backward.isDefEq.respectTransparency.types false in
/-- The distance kernel's region: entered from the launch contents, left with the distance matrix written. -/
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (Ve0 m c) (Ve1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The triplet kernel's region: the distance matrix behind two windows -/

section Shared
variable (c : Dev nD) (V : (c : Dev nD) → (b : Ref sig .tc) → Buf (Elt F) ((c : Thread nD τ).loc b))

/-- The four distinct buffers behind the five windows, one by one. -/
theorem arrBufs1_eq (Vc : (b : Ref sig .tc) → Buf (Elt F) ((c : Thread nD τ).loc b)) :
    (Pipeline.arrBufs (Ix := Unit) (Name := ℕ) (U := UR sig nD τ) (Lvl := ℕ) spec1 c Vc : sProp 𝕄)
      = iprop((((c : Thread nD τ).loc main_v0) ↦{fullShare} Vc main_v0) ∗ (((c : Thread nD τ).loc main_v13) ↦{fullShare} Vc main_v13)
          ∗ (((c : Thread nD τ).loc main_v15) ↦{fullShare} Vc main_v15) ∗ (((c : Thread nD τ).loc main_v20) ↦{fullShare} Vc main_v20)) := by
  unfold Pipeline.arrBufs
  exact bigSep_eq_bigSepL_of_eq [main_v0, main_v13, main_v15, main_v20] (by decide) (by decide) _

/-- The five windows' arrays at the shares the proof data gives them: the distance matrix twice, at the two halves. -/
theorem arrays1_eq (Fw : (w : Fin cfg1.W) → Buf (Elt F) ((cfg1.win w).arr.view.loc (c : Thread nD τ))) :
    ((dat1 V c).arrays Fw : sProp 𝕄)
      = iprop((((c : Thread nD τ).loc main_v0) ↦{fullShare.left} Fw 0) ∗ (((c : Thread nD τ).loc main_v0) ↦{fullShare.right} Fw 1)
          ∗ (((c : Thread nD τ).loc main_v13) ↦{fullShare} Fw 2) ∗ (((c : Thread nD τ).loc main_v15) ↦{fullShare} Fw 3)
          ∗ (((c : Thread nD τ).loc main_v20) ↦{fullShare} Fw 4)) := by
  unfold Dat.arrays
  rw [bigSep_W1, (arr_whole1 0).set_eq_univ, (arr_whole1 2).set_eq_univ, (arr_whole1 3).set_eq_univ, (arr_whole1 4).set_eq_univ]
  rfl

/-- Entering the region: the whole distance matrix splits into the two windows' halves. -/
theorem hsplit1 (Fw : (w : Fin cfg1.W) → Buf (Elt F) ((cfg1.win w).arr.view.loc (c : Thread nD τ)))
    (hF : ∀ w, Fw w = V c (Pipeline.arrRef spec1 w)) :
    (Pipeline.arrBufs (Ix := Unit) (Name := ℕ) (U := UR sig nD τ) (Lvl := ℕ) spec1 c (V c) : sProp 𝕄) ⊢ (dat1 V c).arrays Fw := by
  rw [arrBufs1_eq, arrays1_eq, hF 0, hF 1, hF 2, hF 3, hF 4]
  iintro ⟨H0, H13, H15, H20⟩
  ihave H0' := (pointsTo_share (PosShare.mem_left_op_right fullShare)).1 $$ H0
  icases H0' with ⟨Ha, Hb⟩
  isplitl [Ha]; · iexact Ha
  isplitl [Hb]; · iexact Hb
  isplitl [H13]; · iexact H13
  isplitl [H15]; · iexact H15
  iexact H20

/-- Leaving the region: the two halves, at the same contents, join to the whole distance matrix. -/
theorem hjoin1 (Fw : (w : Fin cfg1.W) → Buf (Elt F) ((cfg1.win w).arr.view.loc (c : Thread nD τ)))
    (V' : (b : Ref sig .tc) → Buf (Elt F) ((c : Thread nD τ).loc b))
    (hF : ∀ w, Fw w = V' (Pipeline.arrRef spec1 w)) :
    ((dat1 V c).arrays Fw : sProp 𝕄) ⊢ Pipeline.arrBufs (Ix := Unit) (Name := ℕ) (U := UR sig nD τ) (Lvl := ℕ) spec1 c V' := by
  rw [arrBufs1_eq, arrays1_eq, hF 0, hF 1, hF 2, hF 3, hF 4]
  iintro ⟨Ha, Hb, H13, H15, H20⟩
  isplitl [Ha Hb]
  · iapply (pointsTo_share (PosShare.mem_left_op_right fullShare)).2
    isplitl [Ha]; · iexact Ha
    iexact Hb
  isplitl [H13]; · iexact H13
  isplitl [H15]; · iexact H15
  iexact H20

end Shared

theorem hF1 (c : Dev nD) (w : Fin cfg1.W) : (dat1 (Ve2 m) c).arrAt w cfg1.N = Ve3 m c (Pipeline.arrRef spec1 w) := by
  match w with
  | ⟨0, _⟩ => exact ((dat1 (Ve2 m) c).arrAt_in 0 rfl _).trans ((A_eq1 (Ve2 m) c 0).trans (W3_of_ne m c main_v0 (by decide)).symm)
  | ⟨1, _⟩ => exact ((dat1 (Ve2 m) c).arrAt_in 1 rfl _).trans ((A_eq1 (Ve2 m) c 1).trans (W3_of_ne m c main_v0 (by decide)).symm)
  | ⟨2, _⟩ => exact ((dat1 (Ve2 m) c).arrAt_in 2 rfl _).trans ((A_eq1 (Ve2 m) c 2).trans (W3_of_ne m c main_v13 (by decide)).symm)
  | ⟨3, _⟩ => exact ((dat1 (Ve2 m) c).arrAt_in 3 rfl _).trans ((A_eq1 (Ve2 m) c 3).trans (W3_of_ne m c main_v15 (by decide)).symm)
  | ⟨4, _⟩ => exact (W3_v20 m c).symm
theorem hrest1 (c : Dev nD) : ∀ b, b ∉ Finset.univ.image (Pipeline.arrRef spec1) → Ve3 m c b = Ve2 m c b :=
  fun b hb => W3_of_ne m c b fun e => hb (Finset.mem_image.mpr ⟨4, Finset.mem_univ _, e.symm⟩)

set_option backward.isDefEq.respectTransparency.types false in
/-- The triplet kernel's region: entered from the contents after the mask-building stretch, left with the total written. -/
def reg1 : Pipeline.RegionSeg (pcfgs (F := F)) adm' (pdats m) () defs₀ 𝒱₀ L lv 1 where
  win := winFacts₀1
  block_pos := block_pos1
  stage_whole := stage_whole1
  K := PEmpty
  osem k := k.elim
  ho := Pipeline.OwnSemFacts.none _
  hbody c := (body_obligation1 (Ve2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (Ve2 m c)
  hentry c := by
    rw [Pipeline.ownSems0_none]
    have hsplit : (unscopedBufs (Ix := Unit) (Name := ℕ) (U := UR sig nD τ) (Lvl := ℕ) c (Ve2 m c) : sProp 𝕄)
        ⊢ iprop((pdats m 1 c).arrays ((pdats m 1 c).arrAt · 0) ∗ Pipeline.unscopedRest spec1 c (Ve2 m c)) := by
      rw [Pipeline.unscopedBufs_split₀ cfgs 1 winFacts₀1.arr_unscoped c (Ve2 m c)]
      exact sep_mono (hsplit1 c (Ve2 m) _ (fun w => A_eq1 (Ve2 m) c w)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (Ve2 m c))
        ⊢ (unscopedBufs (Ix := Unit) (Name := ℕ) (U := UR sig nD τ) (Lvl := ℕ) c (Ve3 m c) : sProp 𝕄) := by
      rw [Pipeline.unscopedBufs_split₀ cfgs 1 winFacts₀1.arr_unscoped c (Ve3 m c)]
      refine sep_mono (hjoin1 c (Ve2 m) _ (Ve3 m c) (hF1 m c)) (Entails.of_eq ?_)
      unfold Pipeline.unscopedRest
      exact bigSep_congr fun b hb => by rw [hrest1 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and its run -/

/-- The four segments in order. -/
abbrev segs : List (Pipeline.Seg (pcfgs (F := F)) adm' (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)) ]

theorem main_run (c : Dev nD) : main (F := F) c = Pipeline.Seg.run (segs m) := (main_chain c).trans (by chain_rfl)

/-- The last thread state but for what the core owes: every unscoped buffer at the final contents, the generator register at some state. -/
abbrev Tₙ (c : Dev nD) : sProp 𝕄 := iprop(StableHlo.held (c : Thread nD τ) (Pipeline.ucRefs τ sig) (W4 m c) ∗ ∃ r, prngReg c r)

set_option backward.isDefEq.respectTransparency.types false in
/-- THE RUN. From any memory with zero counters every weakly fair execution of the program terminates, nothing
    faulting, and every final state holds every unscoped buffer of every core at the contents named above. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm' (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-! ## What no segment writes, and the frame -/

/-- A buffer that neither kernel's output window nor a host operation writes ends at its launch contents. -/
theorem W4_of_unwritten (c : Dev nD) (r : Ref sig .tc) (h2 : r ∉ hostOps2_W) (h20 : r ≠ main_v20) (h1 : r ∉ hostOps1_W) (h0 : r ≠ main_v0) :
    W4 m c (Proc.devRef .tc r) = m ((c : Thread nD τ).loc r) :=
  (StableHlo.after_of_writes_sub hostOps2 _ hostOps2_writes h2).trans <| (W3_of_ne m c r h20).trans <|
    (StableHlo.after_of_writes_sub hostOps1 _ hostOps1_writes h1).trans <| (W1_of_ne m c r h0).trans rfl

/-- The frame claim's post at any instance: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W4_of_unwritten m c main_arg0 (by decide) (by decide) (by decide) (by decide)),
     (h c _ (mem_uc main_arg1 (by decide))).trans (W4_of_unwritten m c main_arg1 (by decide) (by decide) (by decide) (by decide)),
     (h c _ (mem_uc main_arg2 (by decide))).trans (W4_of_unwritten m c main_arg2 (by decide) (by decide) (by decide) (by decide))⟩) (run_all m ρ)

end Cert.Kernel.Hand

end
-- ==== Proof.KI.Region0.lean ====
/-
  The distance kernel (the first pallas_call) as one pipeline region, at any contents `V` of the
  TensorCore's buffers when the region is entered: its one grid point loads the whole feature matrix,
  computes the distance matrix and stores it whole.
-/
import proofs.«134549_j42193758716072_1_alg».proof.Proof.Gen.KernelIdeal.Launch
import proofs.«134549_j42193758716072_1_alg».proof.Proof.Gen.KernelIdeal.Skeleton
import proofs.«134549_j42193758716072_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point, fetched there or not, for any proof data
    whose array is the entry contents and whose body leaves the block in place. -/
theorem pdist_feat_before_of {c : Dev nD} (dat : Dat τ (Elt F) Unit ℕ (UR sig nD τ) ℕ cfg0 c)
    (hA : dat.A 0 = V c (Pipeline.arrRef spec0 0)) (hafter : ∀ t, dat.after 0 t = iblk0 V c 0 t)
    (t : Fin cfg0.N) (d) : dat.before 0 t d = iblk0 V c 0 t :=
  (dat.before_in_eq_fetched 0 rfl (fun _ => rfl) (fun _ _ _ => rfl)
      (fun t => by rw [hafter]; unfold Dat.blockOf iblk0; rw [hA]; try rfl) t d).trans
    (by unfold Dat.fetched Dat.blockOf iblk0; rw [hA]; try rfl)

/-- The whole 512x256 feature buffer, as the rectangle the body loads through. -/
abbrev pdistFeatRect : Rect S512x256 := Rect.unit (s := S512x256) ![0, 0] S512x256.size inb_S512x256_S512x256_0_0

/-- The whole 512x512 distance buffer, as the rectangle the body loads and stores through. -/
abbrev pdistDistRect : Rect S512x512 := Rect.unit (s := S512x512) ![0, 0] S512x512.size inb_S512x512_S512x512_0_0

omit [FloatOps F] in
/-- Both rectangles sit at offset zero on each of their two axes. -/
theorem pdist_origin : (![0, 0] : Fin 2 → Nat) = fun _ => 0 := funext fun a => by fin_cases a <;> rfl

/-- What the body leaves in the output window's staging buffer, from the input block. -/
def out0_1 (x0 : Vec F S512x256 .f32) : Vec F S512x512 .f32 :=
  View.canon [⟨pdistDistRect, k0_pay1 (View.ld x0 pdistFeatRect)⟩]

/-- The one store is through the whole distance buffer, so it covers every index. -/
theorem pdist_covered (p : Vec F S512x512 .f32) (y : S512x512.Idx) :
    ∃ pc ∈ ([⟨pdistDistRect, p⟩] : List (View.Piece (Elt F) S512x512 .f32)), y ∈ pc.1.set :=
  ⟨_, List.mem_singleton_self _, View.mem_set_unit_zero pdist_origin inb_S512x512_S512x512_0_0 y⟩

/-- The output staging buffer after the body holds the distance payload of the whole input block. -/
theorem out0_1_eq (x0 : Vec F S512x256 .f32) : out0_1 x0 = k0_pay1 x0 := by
  unfold out0_1
  rw [View.canon_unit_zero pdist_origin, View.ld_unit_zero pdist_origin]

set_option maxHeartbeats 1000000 in
/-- The distance kernel on whole staging memrefs, the feature buffer at contents x0 and the distance buffer at
    anything, runs to the continuation with the feature buffer as it was and the distance buffer at out0_1 x0. -/
theorem pdist_triple (c : Dev nD) (E : Set ℕ) (i : grid0.Coords)
    (feat : Memref sig .tc .vmem S512x256 .f32) (hfeat : feat.IsWhole)
    (dist : Memref sig .tc .vmem S512x512 .f32) (hdist : dist.IsWhole)
    (x0 : Vec F S512x256 .f32) (K : PUnit → sProp 𝕄) :
    iprop(owns (c : Thread nD τ) feat fullShare x0 ∗ (∃ d, owns (c : Thread nD τ) dist fullShare d)
        ∗ (iprop(owns (c : Thread nD τ) feat fullShare x0 ∗ owns (c : Thread nD τ) dist fullShare (out0_1 x0)) -∗ K ⟨⟩))
      ⊢ wp frame (wpE (defs₀ (F := F)) Variants.none c none) E (cc0__pdist_kernel i feat hfeat dist hdist) K := by
  simp only [cc0__pdist_kernel_eq_skeleton]; unfold cc0__pdist_kernel_skel
  unfold owns
  iintro ⟨⟨%g, %hg, Hfeat⟩, ⟨%d, %h, -, Hdist⟩, Hk⟩
  subst hg
  sl_exec
  sl_step
  iapply Hk
  isplitl [Hfeat]
  · iexists g; isplitr; · ipureintro; rfl
    iexact Hfeat
  iexists _; isplitr
  swap; · iexact Hdist
  ipureintro
  exact View.read_writes_eq_canon _ _ _ (pdist_covered _)

/-- The region's proof data. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The feature window's staging buffer holds the feature block when the body is entered. -/
theorem pdist_feat_before (c : Dev nD) (t : Fin cfg0.N) (d) : (dat0 V c).before 0 t d = iblk0 V c 0 t :=
  pdist_feat_before_of V (dat0 V c) (A_eq0 V c 0) (after0_0 V c) t d

/-- What the body is entered with at point t: the invariant, nothing owed, and the two staging buffers. -/
def pdistPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- What it returns: the same invariant, and the staging buffers at what the proof data says. -/
def pdistPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the feature buffer holds its block, so the kernel's triple applies; the invariant and
    what is owed pass through untouched. -/
theorem pdist_body (c : Dev nD) (t : Fin cfg0.N) :
    pdistPre V c t ⊢ wp frame (wpE (defs₀ (F := F)) Variants.none c none) Set.univ (bodyAt0 t) (fun _ => pdistPost V c t) := by
  unfold pdistPre pdistPost bodyAt0
  simp only [pdist_feat_before]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, Hfeat⟩, ⟨%d1, Hdist⟩⟩
  iapply (pdist_triple c Set.univ _ _ _ _ _ (iblk0 V c 0 t) _)
  isplitl [Hfeat]; · iexact Hfeat
  isplitl [Hdist]; · iexists _; iexact Hdist
  iintro ⟨Hfeat, Hdist⟩
  isplitl [HΦ]; · iexact HΦ
  isplitl [Ho]; · iexact Ho
  isplitl [Hfeat]; · iexact Hfeat
  iexact Hdist

/-- The body obligation at every point. -/
theorem body_obligation0 (c : Dev nD) : BodyObligation (dat0 (F := F) V c) (defs₀ (F := F)) Variants.none () Set.univ := fun t => by
  rw [bigSep_W0, bigSep_W0]
  exact pdist_body V c t

end

end Cert.KernelIdeal.Hand

end
-- ==== Proof.KI.Region1Runs.lean ====
/-
  The triplet kernel's body (the second pallas_call) on whole staging memrefs, in its two control cases.
  The body has one conditional, taken at the first of the 128 grid points only: there it stores the zero
  block into the (1,1) output buffer. At every point it then loads the four (64,128) input blocks, loads
  the output buffer back, and stores into it the sum of what it loaded and the block's sum over the four
  inputs. Every store is of the whole (1,1) block, so the last one alone decides what the buffer holds:
  at the first point the zero block plus the point's sum (case A), at a later point what the buffer held
  plus the point's sum (case B).
-/
import proofs.«134549_j42193758716072_1_alg».proof.Proof.Gen.KernelIdeal.Launch
import proofs.«134549_j42193758716072_1_alg».proof.Proof.Gen.KernelIdeal.Skeleton
import proofs.«134549_j42193758716072_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's one conditional -/

/-- The condition of the body's one conditional, from the grid coordinates (the scalar chain
    substituted): all three coordinates are zero. -/
abbrev cond1_0 (i : grid1.Coords) : Prop :=
  (Scalar.cmpi .ne (Scalar.extui (Scalar.andi (Scalar.andi (Scalar.cmpi .eq (BitVec.ofNat 32 (i 0).val) 0#32) (Scalar.cmpi .eq (BitVec.ofNat 32 (i 1).val) 0#32)) (Scalar.cmpi .eq (BitVec.ofNat 32 (i 2).val) 0#32))) 0#32) = 1#1

/-- It holds at the first of the 128 points only: decided over the grid. -/
theorem hcond1_0 : ∀ t : Fin cfg1.N, cond1_0 (grid1.coords t) ↔ t.val = 0 :=
  (by decide +kernel : ∀ t : Fin grid1.N, cond1_0 (grid1.coords t) ↔ t.val = 0)

/-! ## Whole-buffer loads and stores -/

/-- The offsets of every load and store of the body are zero. -/
theorem hz2 : (![0, 0] : Fin 2 → Nat) = fun _ => 0 := funext fun a => by fin_cases a <;> rfl

/-- A last store of the whole one-entry block decides what the buffer reads, whatever was stored
    before it and whatever the buffer held. -/
theorem read_writes_last1x1 {sg : RefSig} {κ : Kind} {sp : Space} (v : View sg κ sp S1x1 .f32) (f : v.ty.Contents (Elt F))
    (w : Vec F S1x1 .f32) (L : List (View.Piece (Elt F) S1x1 .f32)) :
    v.read (Elt F) (v.writes (Elt F) f (⟨Rect.unit ![0, 0] S1x1.size inb_S1x1_S1x1_0_0, w⟩ :: L)) = w :=
  (View.read_writes_eq_canon v f _ (fun y => ⟨_, List.mem_cons_self, View.mem_set_unit_zero (S := S1x1) hz2 inb_S1x1_S1x1_0_0 y⟩)).trans
    (View.canon_cons_unit_zero (S := S1x1) hz2 inb_S1x1_S1x1_0_0 w L)

/-! ## What the body leaves in the output block, case by case -/

/-- At the first point: the zero block, read back, plus the sum over the point's four input blocks. -/
def out1_A (x0 x1 x2 x3 : Vec F S64x128 .f32) : Vec F S1x1 .f32 :=
  k1_pay1 (k1_pay3 (k1_pay2 (F := F))) (k1_pay4 x0 x1 x2 x3)

/-- At every later point: what the point before left, `prev`, plus the sum over the point's four input blocks. -/
def out1_B (x0 x1 x2 x3 : Vec F S64x128 .f32) (prev : Vec F S1x1 .f32) : Vec F S1x1 .f32 :=
  k1_pay1 (k1_pay3 prev) (k1_pay4 x0 x1 x2 x3)

/-! ## The body's triple, case by case -/

set_option maxHeartbeats 1000000 in
/-- CASE A (the conditional taken: the first point). On whole staging memrefs, the four inputs' at
    contents `x0 … x3` and the output's at anything, the body runs to the continuation holding the inputs'
    as they were and the output's at `out1_A`: it stores the zero block, loads the four input blocks,
    loads the output block (the zero block back), and stores the sum of the two; that last store is of the
    whole block, so it alone decides the contents. -/
theorem sound_kernel1_A (c : Dev nD) (E : Set ℕ) (i : grid1.Coords) (arg3 : Memref sig .tc .vmem S64x128 .f32) (harg3 : arg3.IsWhole) (arg4 : Memref sig .tc .vmem S64x128 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S1x1 .f32) (harg7 : arg7.IsWhole) (hc0 : cond1_0 i)
    (x0 x1 x2 x3 : Vec F S64x128 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (out1_A x0 x1 x2 x3)) -∗ K ⟨⟩))
      ⊢ wp frame (wpE (defs₀ (F := F)) Variants.none c none) E (cc1__triplet_kernel i arg3 harg3 arg4 harg4 arg5 harg5 arg6 harg6 arg7 harg7) K := by
  simp only [cc1__triplet_kernel_eq_skeleton]; unfold cc1__triplet_kernel_skel
  simp only [k1_part1_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg3.eq_unread hf0; obtain rfl := harg4.eq_unread hf1; obtain rfl := harg5.eq_unread hf2; obtain rfl := harg6.eq_unread hf3
  sl_exec (disch := first | exact hc0)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; isplitr
  swap; · iexact H4
  ipureintro
  refine (read_writes_last1x1 _ _ _ _).trans ?_
  sl_unfold_words
  rw [View.readCov_unit_zero (S := S1x1) _ hz2]
  simp only [View.readAt_eq_ld, harg3.read_unread, harg4.read_unread, harg5.read_unread, harg6.read_unread, View.ld_unit_zero (S := S64x128) hz2]
  rfl

set_option maxHeartbeats 1000000 in
/-- CASE B (the conditional not taken: every later point). The same, the output's memref at the contents
    `prev` the point before left: the body loads the four input blocks, loads the output block (`prev`), and
    stores the sum of the two, whole. -/
theorem sound_kernel1_B (c : Dev nD) (E : Set ℕ) (i : grid1.Coords) (arg3 : Memref sig .tc .vmem S64x128 .f32) (harg3 : arg3.IsWhole) (arg4 : Memref sig .tc .vmem S64x128 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S1x1 .f32) (harg7 : arg7.IsWhole) (hc0 : ¬cond1_0 i)
    (x0 x1 x2 x3 : Vec F S64x128 .f32) (prev : Vec F S1x1 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare prev
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (out1_B x0 x1 x2 x3 prev)) -∗ K ⟨⟩))
      ⊢ wp frame (wpE (defs₀ (F := F)) Variants.none c none) E (cc1__triplet_kernel i arg3 harg3 arg4 harg4 arg5 harg5 arg6 harg6 arg7 harg7) K := by
  simp only [cc1__triplet_kernel_eq_skeleton]; unfold cc1__triplet_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg3.eq_unread hf0; obtain rfl := harg4.eq_unread hf1; obtain rfl := harg5.eq_unread hf2; obtain rfl := harg6.eq_unread hf3
  obtain rfl := harg7.eq_unread hf4
  sl_exec (disch := first | exact hc0)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; isplitr
  swap; · iexact H4
  ipureintro
  refine (read_writes_last1x1 _ _ _ _).trans ?_
  sl_unfold_words
  simp only [View.readAt_eq_ld, harg3.read_unread, harg4.read_unread, harg5.read_unread, harg6.read_unread, harg7.read_unread, View.ld_unit_zero (S := S64x128) hz2, View.ld_unit_zero (S := S1x1) hz2]
  rfl

end Cert.KernelIdeal.Hand

end
-- ==== Proof.KI.Region1.lean ====
/-
  The triplet kernel (the second pallas_call) as one pipeline region of 128 grid points, at any contents
  `V` of the TensorCore's buffers when the region is entered: the (1,1) output block is reset at the
  first point and every point adds its block's sum to it; it is written back once, after the last point.
-/
import proofs.«134549_j42193758716072_1_alg».proof.Proof.Gen.KernelIdeal.Launch
import proofs.«134549_j42193758716072_1_alg».proof.Proof.Gen.KernelIdeal.Skeleton
import proofs.«134549_j42193758716072_1_alg».proof.Proof.Gen.KernelIdeal.Points
import proofs.«134549_j42193758716072_1_alg».proof.Proof.KI.Region1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the output block's staging buffer holds after the body at position `n`: THE ACCUMULATION. After
    the first point, the zero block plus that point's sum; after point `n + 1`, what point `n` left plus
    point `n + 1`'s sum (the buffer is not written back between points). -/
def outsAt1 (c : Dev nD) : (n : ℕ) → n < cfg1.N → Vec F S1x1 .f32
  | 0, hn => out1_A (iblk1 V c 0 ⟨0, hn⟩) (iblk1 V c 1 ⟨0, hn⟩) (iblk1 V c 2 ⟨0, hn⟩) (iblk1 V c 3 ⟨0, hn⟩)
  | n + 1, hn => out1_B (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn))

/-- The shares the windows hold their arrays at: the distance matrix is read through two windows, half each. -/
def q1 : Fin cfg1.W → PosShare TreeShare
  | ⟨0, _⟩ => fullShare.left
  | ⟨1, _⟩ => fullShare.right
  | _ => fullShare

/-- The region's proof data. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outsAt1 V c t.val t.isLt
  Φ _ := Pipeline.ΦA spec1 c
  q := q1
  owed _ := 0

theorem A_eq1 (c : Dev nD) (w : Fin cfg1.W) : (dat1 V c).A w = V c (Pipeline.arrRef spec1 w) := by
  dsimp only [dat1]
/-- What the body leaves, window by window: each input's buffer at its block, the output's at the accumulation. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outsAt1 V c t.val t.isLt := by dsimp only [dat1]

/-! ## The accumulation, case by case and as equations over the payloads -/

/-- At the first point. -/
theorem outsAt1_A (c : Dev nD) (t : Fin cfg1.N) (h0 : t.val = 0) :
    outsAt1 V c t.val t.isLt = out1_A (iblk1 V c 0 t) (iblk1 V c 1 t) (iblk1 V c 2 t) (iblk1 V c 3 t) := by
  obtain ⟨n, hn⟩ := t
  cases n with
  | zero => rfl
  | succ n => exact absurd h0 (Nat.succ_ne_zero n)

/-- At a later point: over what the point before left. -/
theorem outsAt1_B (c : Dev nD) (t : Fin cfg1.N) (h0 : ¬t.val = 0) :
    outsAt1 V c t.val t.isLt = out1_B (iblk1 V c 0 t) (iblk1 V c 1 t) (iblk1 V c 2 t) (iblk1 V c 3 t) (outsAt1 V c (t.val - 1) (Nat.lt_of_le_of_lt (Nat.sub_le _ _) t.isLt)) := by
  obtain ⟨n, hn⟩ := t
  cases n with
  | zero => exact absurd rfl h0
  | succ n => rfl

/-- After the first point: the zero block, read back, plus the first point's sum. -/
theorem outsAt1_zero (c : Dev nD) (h0 : 0 < cfg1.N) : outsAt1 V c 0 h0 = k1_pay1 (k1_pay3 (k1_pay2 (F := F))) (k1_pay4 (iblk1 V c 0 ⟨0, h0⟩) (iblk1 V c 1 ⟨0, h0⟩) (iblk1 V c 2 ⟨0, h0⟩) (iblk1 V c 3 ⟨0, h0⟩)) := rfl

/-- After point `n + 1`: what point `n` left, read back, plus point `n + 1`'s sum. -/
theorem outsAt1_succ (c : Dev nD) (n : ℕ) (hn : n + 1 < cfg1.N) : outsAt1 V c (n + 1) hn = k1_pay1 (k1_pay3 (outsAt1 V c n (Nat.lt_of_succ_lt hn))) (k1_pay4 (iblk1 V c 0 ⟨n + 1, hn⟩) (iblk1 V c 1 ⟨n + 1, hn⟩) (iblk1 V c 2 ⟨n + 1, hn⟩) (iblk1 V c 3 ⟨n + 1, hn⟩)) := rfl

/-! ## What the staging buffers hold when the body is called -/

/-- Each input window's current staging buffer holds its block at every point, fetched there or not (windows 0
    and 2 are fetched at every fourth point only: between, their block index has not moved). -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- At a later point the output's staging buffer holds what the body left at the point before: the window has one
    buffer, is live at every point, and is written back after the last point only. -/
theorem before1_4_B (c : Dev nD) (t : Fin cfg1.N) (h0 : ¬t.val = 0) (d) :
    (dat1 V c).before 4 t d = outsAt1 V c (t.val - 1) (Nat.lt_of_le_of_lt (Nat.sub_le _ _) t.isLt) := by
  have hN : t.val < 128 := lt_of_lt_of_eq t.isLt (show cfg1.N = 128 from N_1)
  rw [Dat.before_out_kept _ 4 rfl t h0 (Bool.eq_false_iff.mpr fun h => by have := (flush1_4 _).mp h; dsimp only at this; omega)
    (fun _ => rfl) (fun _ _ => rfl)]
  exact after1_4 V c _

/-! ## The body obligation, at a generic point -/

/-- Each window's current staging memref at point `t`, spelled as the pipeline passes it to the body. -/
abbrev ms1_0 (t : Fin cfg1.N) : Memref sig .tc .vmem S64x128 .f32 := win1_0.stage (cfg1.slots t 0)
abbrev ms1_1 (t : Fin cfg1.N) : Memref sig .tc .vmem S64x128 .f32 := win1_1.stage (cfg1.slots t 1)
abbrev ms1_2 (t : Fin cfg1.N) : Memref sig .tc .vmem S64x128 .f32 := win1_2.stage (cfg1.slots t 2)
abbrev ms1_3 (t : Fin cfg1.N) : Memref sig .tc .vmem S64x128 .f32 := win1_3.stage (cfg1.slots t 3)
abbrev ms1_4 (t : Fin cfg1.N) : Memref sig .tc .vmem S1x1 .f32 := win1_4.stage (cfg1.slots t 4)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 800000 in
/-- The body at any point. The inputs' memrefs hold their blocks; the point is the first or a later one; at the
    first the body resets the output block before adding to it (case A), at a later one the output's memref holds
    what the point before left and the body adds to that (case B). The invariant passes through unread and the core
    owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  by_cases h0 : t.val = 0
  · rw [outsAt1_A V c t h0]
    iintro ⟨HΦ, Ho, ⟨%d0, H0⟩, ⟨%d1, H1⟩, ⟨%d2, H2⟩, ⟨%d3, H3⟩, ⟨%d4, H4⟩⟩
    iapply (sound_kernel1_A c Set.univ (grid1.coords t) _ _ _ _ _ _ _ _ _ _ ((hcond1_0 t).mpr h0) (iblk1 V c 0 t) (iblk1 V c 1 t) (iblk1 V c 2 t) (iblk1 V c 3 t) _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [outsAt1_B V c t h0]
    simp only [before1_4_B V c t h0]
    iintro ⟨HΦ, Ho, ⟨%d0, H0⟩, ⟨%d1, H1⟩, ⟨%d2, H2⟩, ⟨%d3, H3⟩, ⟨%d4, H4⟩⟩
    iapply (sound_kernel1_B c Set.univ (grid1.coords t) _ _ _ _ _ _ _ _ _ _ (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The body obligation at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.KI.Run.lean ====
/-
  The whole program's run: the distance kernel's region, the host stretch that builds the two masks and
  the count, the triplet kernel's region, and the closing reshape and division, composed segment by segment.
  Between two segments every unscoped buffer of the core is held at contents named here: the launch memory,
  then the distance matrix written, then the host stretch applied, then the accumulated total written, then
  the closing stretch applied. The distance matrix is read by the triplet kernel through two windows, so on
  entering that region its buffer is split into two half shares and joined again on leaving it.
-/
import proofs.«134549_j42193758716072_1_alg».proof.Proof.Gen.KernelIdeal.Regions
import proofs.«134549_j42193758716072_1_alg».proof.Proof.KI.Region0
import proofs.«134549_j42193758716072_1_alg».proof.Proof.KI.Region1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- Core `c`'s buffers at launch (the distance kernel's region is entered from them). -/
abbrev W0 : Dev nD → Valuation τ sig (Elt F) := fun c b => m (c, b)
/-- The same read at the TensorCore's references. -/
abbrev Ve0 : (c : Dev nD) → (b : Ref sig .tc) → Buf (Elt F) ((c : Thread nD τ).loc b) := fun c b => W0 m c b
/-- After the distance kernel: the distance matrix at what the region leaves in it. -/
def W1 (c : Dev nD) : Valuation τ sig (Elt F) :=
  Function.update (W0 m c) main_v0 ((dat0 (Ve0 m) c).arrAt 1 cfg0.N)
abbrev Ve1 : (c : Dev nD) → (b : Ref sig .tc) → Buf (Elt F) ((c : Thread nD τ).loc b) := fun c b => W1 m c b
/-- After the host stretch that builds the masks and the count. -/
abbrev W2 : Dev nD → Valuation τ sig (Elt F) := fun c => StableHlo.after hostOps1 (W1 m c)
abbrev Ve2 : (c : Dev nD) → (b : Ref sig .tc) → Buf (Elt F) ((c : Thread nD τ).loc b) := fun c b => W2 m c b
/-- After the triplet kernel: the 1x1 total at what the region leaves in it. -/
def W3 (c : Dev nD) : Valuation τ sig (Elt F) :=
  Function.update (W2 m c) main_v20 ((dat1 (Ve2 m) c).arrAt 4 cfg1.N)
abbrev Ve3 : (c : Dev nD) → (b : Ref sig .tc) → Buf (Elt F) ((c : Thread nD τ).loc b) := fun c b => W3 m c b
/-- After the closing reshape and division. -/
abbrev W4 : Dev nD → Valuation τ sig (Elt F) := fun c => StableHlo.after hostOps2 (W3 m c)

theorem W1_v0 (c : Dev nD) : W1 m c (Proc.devRef .tc main_v0) = (dat0 (Ve0 m) c).arrAt 1 cfg0.N := by
  unfold W1; exact Function.update_self ..
theorem W1_of_ne (c : Dev nD) (b : Ref sig .tc) (hb : b ≠ main_v0) : W1 m c (Proc.devRef .tc b) = W0 m c (Proc.devRef .tc b) := by
  unfold W1; exact Function.update_of_ne (StableHlo.devRef_ne_of_ne hb) ..
theorem W3_v20 (c : Dev nD) : W3 m c (Proc.devRef .tc main_v20) = (dat1 (Ve2 m) c).arrAt 4 cfg1.N := by
  unfold W3; exact Function.update_self ..
theorem W3_of_ne (c : Dev nD) (b : Ref sig .tc) (hb : b ≠ main_v20) : W3 m c (Proc.devRef .tc b) = W2 m c (Proc.devRef .tc b) := by
  unfold W3; exact Function.update_of_ne (StableHlo.devRef_ne_of_ne hb) ..

/-! ## The proof data family and what rides beside the buffers -/

/-- No pipeline has a prefetched table. -/
abbrev adm' : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm' p) c
  | ⟨0, _⟩ => fun c => dat0 (Ve0 m) c
  | ⟨1, _⟩ => fun c => dat1 (Ve2 m) c
abbrev 𝒱₀ : Variants := Variants.none
abbrev L : GSem nD τ sig → Finset Unit := fun _ => ∅
abbrev lv : GSem nD τ sig → Unit → ℕ := fun _ _ => 0
/-- Beside the buffers: the core's generator register at some state, and the core owing nothing. -/
abbrev R (c : Dev nD) : sProp 𝕄 := iprop((∃ r, prngReg c r) ∗ ∃ W, owes (c : Thread nD τ) (0 : CellTallies nD τ sig Unit) W)

/-- A host stretch as a segment over all the core's unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The distance kernel's region -/

theorem hF0 (c : Dev nD) (w : Fin cfg0.W) : (dat0 (Ve0 m) c).arrAt w cfg0.N = Ve1 m c (Pipeline.arrRef spec0 w) := by
  match w with
  | ⟨0, _⟩ => exact ((dat0 (Ve0 m) c).arrAt_in 0 rfl _).trans ((A_eq0 (Ve0 m) c 0).trans (W1_of_ne m c main_arg0 (by decide)).symm)
  | ⟨1, _⟩ => exact (W1_v0 m c).symm
theorem hrest0 (c : Dev nD) : ∀ b, b ∉ Finset.univ.image (Pipeline.arrRef spec0) → Ve1 m c b = Ve0 m c b :=
  fun b hb => W1_of_ne m c b fun e => hb (Finset.mem_image.mpr ⟨1, Finset.mem_univ _, e.symm⟩)

set_option backward.isDefEq.respectTransparency.types false in
/-- The distance kernel's region: entered from the launch contents, left with the distance matrix written. -/
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (Ve0 m c) (Ve1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The triplet kernel's region: the distance matrix behind two windows -/

section Shared
variable (c : Dev nD) (V : (c : Dev nD) → (b : Ref sig .tc) → Buf (Elt F) ((c : Thread nD τ).loc b))

/-- The four distinct buffers behind the five windows, one by one. -/
theorem arrBufs1_eq (Vc : (b : Ref sig .tc) → Buf (Elt F) ((c : Thread nD τ).loc b)) :
    (Pipeline.arrBufs (Ix := Unit) (Name := ℕ) (U := UR sig nD τ) (Lvl := ℕ) spec1 c Vc : sProp 𝕄)
      = iprop((((c : Thread nD τ).loc main_v0) ↦{fullShare} Vc main_v0) ∗ (((c : Thread nD τ).loc main_v13) ↦{fullShare} Vc main_v13)
          ∗ (((c : Thread nD τ).loc main_v15) ↦{fullShare} Vc main_v15) ∗ (((c : Thread nD τ).loc main_v20) ↦{fullShare} Vc main_v20)) := by
  unfold Pipeline.arrBufs
  exact bigSep_eq_bigSepL_of_eq [main_v0, main_v13, main_v15, main_v20] (by decide) (by decide) _

/-- The five windows' arrays at the shares the proof data gives them: the distance matrix twice, at the two halves. -/
theorem arrays1_eq (Fw : (w : Fin cfg1.W) → Buf (Elt F) ((cfg1.win w).arr.view.loc (c : Thread nD τ))) :
    ((dat1 V c).arrays Fw : sProp 𝕄)
      = iprop((((c : Thread nD τ).loc main_v0) ↦{fullShare.left} Fw 0) ∗ (((c : Thread nD τ).loc main_v0) ↦{fullShare.right} Fw 1)
          ∗ (((c : Thread nD τ).loc main_v13) ↦{fullShare} Fw 2) ∗ (((c : Thread nD τ).loc main_v15) ↦{fullShare} Fw 3)
          ∗ (((c : Thread nD τ).loc main_v20) ↦{fullShare} Fw 4)) := by
  unfold Dat.arrays
  rw [bigSep_W1, (arr_whole1 0).set_eq_univ, (arr_whole1 2).set_eq_univ, (arr_whole1 3).set_eq_univ, (arr_whole1 4).set_eq_univ]
  rfl

/-- Entering the region: the whole distance matrix splits into the two windows' halves. -/
theorem hsplit1 (Fw : (w : Fin cfg1.W) → Buf (Elt F) ((cfg1.win w).arr.view.loc (c : Thread nD τ)))
    (hF : ∀ w, Fw w = V c (Pipeline.arrRef spec1 w)) :
    (Pipeline.arrBufs (Ix := Unit) (Name := ℕ) (U := UR sig nD τ) (Lvl := ℕ) spec1 c (V c) : sProp 𝕄) ⊢ (dat1 V c).arrays Fw := by
  rw [arrBufs1_eq, arrays1_eq, hF 0, hF 1, hF 2, hF 3, hF 4]
  iintro ⟨H0, H13, H15, H20⟩
  ihave H0' := (pointsTo_share (PosShare.mem_left_op_right fullShare)).1 $$ H0
  icases H0' with ⟨Ha, Hb⟩
  isplitl [Ha]; · iexact Ha
  isplitl [Hb]; · iexact Hb
  isplitl [H13]; · iexact H13
  isplitl [H15]; · iexact H15
  iexact H20

/-- Leaving the region: the two halves, at the same contents, join to the whole distance matrix. -/
theorem hjoin1 (Fw : (w : Fin cfg1.W) → Buf (Elt F) ((cfg1.win w).arr.view.loc (c : Thread nD τ)))
    (V' : (b : Ref sig .tc) → Buf (Elt F) ((c : Thread nD τ).loc b))
    (hF : ∀ w, Fw w = V' (Pipeline.arrRef spec1 w)) :
    ((dat1 V c).arrays Fw : sProp 𝕄) ⊢ Pipeline.arrBufs (Ix := Unit) (Name := ℕ) (U := UR sig nD τ) (Lvl := ℕ) spec1 c V' := by
  rw [arrBufs1_eq, arrays1_eq, hF 0, hF 1, hF 2, hF 3, hF 4]
  iintro ⟨Ha, Hb, H13, H15, H20⟩
  isplitl [Ha Hb]
  · iapply (pointsTo_share (PosShare.mem_left_op_right fullShare)).2
    isplitl [Ha]; · iexact Ha
    iexact Hb
  isplitl [H13]; · iexact H13
  isplitl [H15]; · iexact H15
  iexact H20

end Shared

theorem hF1 (c : Dev nD) (w : Fin cfg1.W) : (dat1 (Ve2 m) c).arrAt w cfg1.N = Ve3 m c (Pipeline.arrRef spec1 w) := by
  match w with
  | ⟨0, _⟩ => exact ((dat1 (Ve2 m) c).arrAt_in 0 rfl _).trans ((A_eq1 (Ve2 m) c 0).trans (W3_of_ne m c main_v0 (by decide)).symm)
  | ⟨1, _⟩ => exact ((dat1 (Ve2 m) c).arrAt_in 1 rfl _).trans ((A_eq1 (Ve2 m) c 1).trans (W3_of_ne m c main_v0 (by decide)).symm)
  | ⟨2, _⟩ => exact ((dat1 (Ve2 m) c).arrAt_in 2 rfl _).trans ((A_eq1 (Ve2 m) c 2).trans (W3_of_ne m c main_v13 (by decide)).symm)
  | ⟨3, _⟩ => exact ((dat1 (Ve2 m) c).arrAt_in 3 rfl _).trans ((A_eq1 (Ve2 m) c 3).trans (W3_of_ne m c main_v15 (by decide)).symm)
  | ⟨4, _⟩ => exact (W3_v20 m c).symm
theorem hrest1 (c : Dev nD) : ∀ b, b ∉ Finset.univ.image (Pipeline.arrRef spec1) → Ve3 m c b = Ve2 m c b :=
  fun b hb => W3_of_ne m c b fun e => hb (Finset.mem_image.mpr ⟨4, Finset.mem_univ _, e.symm⟩)

set_option backward.isDefEq.respectTransparency.types false in
/-- The triplet kernel's region: entered from the contents after the mask-building stretch, left with the total written. -/
def reg1 : Pipeline.RegionSeg (pcfgs (F := F)) adm' (pdats m) () defs₀ 𝒱₀ L lv 1 where
  win := winFacts₀1
  block_pos := block_pos1
  stage_whole := stage_whole1
  K := PEmpty
  osem k := k.elim
  ho := Pipeline.OwnSemFacts.none _
  hbody c := (body_obligation1 (Ve2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (Ve2 m c)
  hentry c := by
    rw [Pipeline.ownSems0_none]
    have hsplit : (unscopedBufs (Ix := Unit) (Name := ℕ) (U := UR sig nD τ) (Lvl := ℕ) c (Ve2 m c) : sProp 𝕄)
        ⊢ iprop((pdats m 1 c).arrays ((pdats m 1 c).arrAt · 0) ∗ Pipeline.unscopedRest spec1 c (Ve2 m c)) := by
      rw [Pipeline.unscopedBufs_split₀ cfgs 1 winFacts₀1.arr_unscoped c (Ve2 m c)]
      exact sep_mono (hsplit1 c (Ve2 m) _ (fun w => A_eq1 (Ve2 m) c w)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (Ve2 m c))
        ⊢ (unscopedBufs (Ix := Unit) (Name := ℕ) (U := UR sig nD τ) (Lvl := ℕ) c (Ve3 m c) : sProp 𝕄) := by
      rw [Pipeline.unscopedBufs_split₀ cfgs 1 winFacts₀1.arr_unscoped c (Ve3 m c)]
      refine sep_mono (hjoin1 c (Ve2 m) _ (Ve3 m c) (hF1 m c)) (Entails.of_eq ?_)
      unfold Pipeline.unscopedRest
      exact bigSep_congr fun b hb => by rw [hrest1 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and its run -/

/-- The four segments in order. -/
abbrev segs : List (Pipeline.Seg (pcfgs (F := F)) adm' (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)) ]

theorem main_run (c : Dev nD) : main (F := F) c = Pipeline.Seg.run (segs m) := (main_chain c).trans (by chain_rfl)

/-- The last thread state but for what the core owes: every unscoped buffer at the final contents, the generator register at some state. -/
abbrev Tₙ (c : Dev nD) : sProp 𝕄 := iprop(StableHlo.held (c : Thread nD τ) (Pipeline.ucRefs τ sig) (W4 m c) ∗ ∃ r, prngReg c r)

set_option backward.isDefEq.respectTransparency.types false in
/-- THE RUN. From any memory with zero counters every weakly fair execution of the program terminates, nothing
    faulting, and every final state holds every unscoped buffer of every core at the contents named above. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm' (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-! ## What no segment writes, and the frame -/

/-- A buffer that neither kernel's output window nor a host operation writes ends at its launch contents. -/
theorem W4_of_unwritten (c : Dev nD) (r : Ref sig .tc) (h2 : r ∉ hostOps2_W) (h20 : r ≠ main_v20) (h1 : r ∉ hostOps1_W) (h0 : r ≠ main_v0) :
    W4 m c (Proc.devRef .tc r) = m ((c : Thread nD τ).loc r) :=
  (StableHlo.after_of_writes_sub hostOps2 _ hostOps2_writes h2).trans <| (W3_of_ne m c r h20).trans <|
    (StableHlo.after_of_writes_sub hostOps1 _ hostOps1_writes h1).trans <| (W1_of_ne m c r h0).trans rfl

/-- The frame claim's post at any instance: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W4_of_unwritten m c main_arg0 (by decide) (by decide) (by decide) (by decide)),
     (h c _ (mem_uc main_arg1 (by decide))).trans (W4_of_unwritten m c main_arg1 (by decide) (by decide) (by decide) (by decide)),
     (h c _ (mem_uc main_arg2 (by decide))).trans (W4_of_unwritten m c main_arg2 (by decide) (by decide) (by decide) (by decide))⟩) (run_all m ρ)

end Cert.KernelIdeal.Hand

end
-- ==== Proof.Spec.lean ====
/-
  The mathematics both programs compute, stated once over the extended reals.

  For a feature matrix `x` (512 rows of 256 numbers) and labels `y` (512 words):
  * `sqn x i` is the squared length of row `i`, `gram x i j` the inner product of rows `i` and `j`,
    and `dist x i j = sqrt (max (sqn x i + sqn x j - 2 * gram x i j) eps)` the clamped Euclidean distance;
  * `pos y a p` is 1 when `a ≠ p` carry the same label and 0 otherwise, `neg y a n` is 1 when the
    labels of `a` and `n` differ and 0 otherwise;
  * `term D P N a p n = logistic (10 * (D a p - D a n)) * (P a p * N a n)` is one triplet's weighted loss,
    `total` its sum over all triplets, `count` the number of valid triplets written as
    `∑ a, (∑ p, P a p) * (∑ n, N a n)`, and `loss = total / count`.
-/
import Idealize.ShloMosaic.PureOps.Ideal
import Idealize.ShloMosaic.Lib.ValueIdx

noncomputable section

namespace Cert.Spec

open Idealize.ShloMosaic Idealize.ShloMosaic.ValueIdx

/-- The feature matrix's shape, the label vector's and the distance matrix's. -/
abbrev SF : Shape := ⟨2, ![512, 256]⟩
abbrev SY : Shape := ⟨1, ![512]⟩
abbrev SD : Shape := ⟨2, ![512, 512]⟩

/-- The squared length of row `i`. -/
def sqn (x : SF.Idx → EReal) (i : Fin 512) : EReal := ∑ k : Fin 256, x (ix2 i k) * x (ix2 i k)

/-- The inner product of rows `i` and `j`. -/
def gram (x : SF.Idx → EReal) (i j : Fin 512) : EReal := ∑ k : Fin 256, x (ix2 i k) * x (ix2 j k)

/-- The clamped Euclidean distance of rows `i` and `j`: the literals are 2 and the clamp 1e-12 as f32 words. -/
def dist (x : SF.Idx → EReal) (i j : Fin 512) : EReal :=
  Ideal.sqrt (max (sqn x i + sqn x j - Ideal.ofBits .f32 0x40000000#32 * gram x i j) (Ideal.ofBits .f32 0x2B8CBCCC#32))

/-- 1 when `a` and `p` are different rows with one label, else 0. -/
def pos (y : SY.Idx → BitVec 32) (a p : Fin 512) : EReal := if y (ix1 a) = y (ix1 p) ∧ a ≠ p then 1 else 0

/-- 1 when the labels of `a` and `n` differ, else 0. -/
def neg (y : SY.Idx → BitVec 32) (a n : Fin 512) : EReal := if y (ix1 a) = y (ix1 n) then 0 else 1

/-- One triplet's weighted loss: the literal is 10 as an f32 word. -/
def term (D P N : Fin 512 → Fin 512 → EReal) (a p n : Fin 512) : EReal :=
  Ideal.logistic (Ideal.ofBits .f32 0x41200000#32 * (D a p - D a n)) * (P a p * N a n)

/-- The sum of the weighted losses over all triplets. -/
def total (D P N : Fin 512 → Fin 512 → EReal) : EReal := ∑ a : Fin 512, ∑ p : Fin 512, ∑ n : Fin 512, term D P N a p n

/-- The number of valid triplets, anchor by anchor: positives times negatives. -/
def count (P N : Fin 512 → Fin 512 → EReal) : EReal := ∑ a : Fin 512, (∑ p : Fin 512, P a p) * (∑ n : Fin 512, N a n)

/-- The mean loss over the valid triplets. -/
def loss (x : SF.Idx → EReal) (y : SY.Idx → BitVec 32) : EReal :=
  Ideal.div (total (dist x) (pos y) (neg y)) (count (pos y) (neg y))

end Cert.Spec

end
-- ==== Proof.SpecAlgebra.lean ====
/-
  Laws of the specification over the extended reals: the triple sum regrouped by the kernel's 128 blocks,
  a masked term as a selection, and the separable count of valid triplets as a triple sum of indicators.
-/
import proofs.«134549_j42193758716072_1_alg».proof.Proof.Spec

noncomputable section

namespace Cert.Spec

open Idealize.ShloMosaic Idealize.ShloMosaic.ValueIdx

/-- Grid point `t` of the 8 x 4 x 4 grid (row-major) covers anchor rows `64 (t / 16) + a`, -/
def rowOf (t : Fin 128) (a : Fin 64) : Fin 512 := ⟨64 * (t.val / 16) + a.val, by have := t.isLt; have := a.isLt; omega⟩
/-- positive columns `128 (t / 4 % 4) + p`, -/
def posOf (t : Fin 128) (p : Fin 128) : Fin 512 := ⟨128 * (t.val / 4 % 4) + p.val, by have := t.isLt; have := p.isLt; omega⟩
/-- and negative columns `128 (t % 4) + n`. -/
def negOf (t : Fin 128) (n : Fin 128) : Fin 512 := ⟨128 * (t.val % 4) + n.val, by have := t.isLt; have := n.isLt; omega⟩

/-- The sum of the weighted losses over block `t`. -/
def blockSum (D P N : Fin 512 → Fin 512 → EReal) (t : Fin 128) : EReal :=
  ∑ a : Fin 64, ∑ p : Fin 128, ∑ n : Fin 128, term D P N (rowOf t a) (posOf t p) (negOf t n)

/-- A block's grid point with its three local coordinates is one triplet of the cube, and conversely: the grid point
    is `16 (A / 64) + 4 (P / 128) + N / 128` and the local coordinates are the remainders. -/
def blockEquiv : Fin 128 × Fin 64 × Fin 128 × Fin 128 ≃ Fin 512 × Fin 512 × Fin 512 where
  toFun x := (rowOf x.1 x.2.1, posOf x.1 x.2.2.1, negOf x.1 x.2.2.2)
  invFun y := (⟨16 * (y.1.val / 64) + 4 * (y.2.1.val / 128) + y.2.2.val / 128, by
      have := y.1.isLt; have := y.2.1.isLt; have := y.2.2.isLt; omega⟩,
    ⟨y.1.val % 64, by omega⟩, ⟨y.2.1.val % 128, by omega⟩, ⟨y.2.2.val % 128, by omega⟩)
  left_inv x := by
    obtain ⟨t, a, p, n⟩ := x
    have := t.isLt; have := a.isLt; have := p.isLt; have := n.isLt
    refine Prod.ext (Fin.ext ?_) (Prod.ext (Fin.ext ?_) (Prod.ext (Fin.ext ?_) (Fin.ext ?_))) <;>
      simp only [rowOf, posOf, negOf] <;> omega
  right_inv y := by
    obtain ⟨a, p, n⟩ := y
    have := a.isLt; have := p.isLt; have := n.isLt
    refine Prod.ext (Fin.ext ?_) (Prod.ext (Fin.ext ?_) (Fin.ext ?_)) <;>
      simp only [rowOf, posOf, negOf] <;> omega

/-- The 128 blocks tile the cube of triplets: the total is the sum of the blocks' sums (addition on the
    extended reals is commutative and associative, so any regrouping of a finite sum is allowed). -/
theorem total_eq_sum_blocks (D P N : Fin 512 → Fin 512 → EReal) :
    total D P N = ∑ t : Fin 128, blockSum D P N t := by
  unfold total blockSum
  symm
  calc ∑ t : Fin 128, ∑ a : Fin 64, ∑ p : Fin 128, ∑ n : Fin 128,
          term D P N (rowOf t a) (posOf t p) (negOf t n)
      = ∑ x : Fin 128 × Fin 64 × Fin 128 × Fin 128,
          (fun y : Fin 512 × Fin 512 × Fin 512 => term D P N y.1 y.2.1 y.2.2) (blockEquiv x) := by
        simp only [Fintype.sum_prod_type]; rfl
    _ = ∑ y : Fin 512 × Fin 512 × Fin 512, term D P N y.1 y.2.1 y.2.2 :=
        Equiv.sum_comp blockEquiv (fun y : Fin 512 × Fin 512 × Fin 512 => term D P N y.1 y.2.1 y.2.2)
    _ = ∑ a : Fin 512, ∑ p : Fin 512, ∑ n : Fin 512, term D P N a p n := by
        simp only [Fintype.sum_prod_type]

/-- The blocks' sums added one after the other from zero: the kernel's accumulator after point `k`. -/
def accTo (D P N : Fin 512 → Fin 512 → EReal) : ℕ → EReal
  | 0 => 0
  | k + 1 => accTo D P N k + (if h : k < 128 then blockSum D P N ⟨k, h⟩ else 0)

/-- The accumulator after point `k` is the sum of the first `k` blocks' sums. -/
theorem accTo_eq_sum_range (D P N : Fin 512 → Fin 512 → EReal) (k : ℕ) :
    accTo D P N k = ∑ i ∈ Finset.range k, (if h : i < 128 then blockSum D P N ⟨i, h⟩ else 0) := by
  induction k with
  | zero => rfl
  | succ k ih => rw [Finset.sum_range_succ, ← ih]; rfl

theorem accTo_128 (D P N : Fin 512 → Fin 512 → EReal) : accTo D P N 128 = total D P N := by
  rw [accTo_eq_sum_range, total_eq_sum_blocks, Finset.sum_range]
  refine Finset.sum_congr rfl fun t _ => ?_
  rw [dif_pos t.isLt]

/-- A triplet is valid when anchor and positive are different rows of one label and the negative's label differs. -/
def Valid (y : SY.Idx → BitVec 32) (a p n : Fin 512) : Prop := (y (ix1 a) = y (ix1 p) ∧ a ≠ p) ∧ ¬ y (ix1 a) = y (ix1 n)

instance (y : SY.Idx → BitVec 32) (a p n : Fin 512) : Decidable (Valid y a p n) := by unfold Valid; infer_instance

/-- Multiplying by the product of the two 0/1 masks selects the valid triplets. -/
theorem term_eq_ite (D : Fin 512 → Fin 512 → EReal) (y : SY.Idx → BitVec 32) (a p n : Fin 512) :
    term D (pos y) (neg y) a p n
      = if Valid y a p n then Ideal.logistic (Ideal.ofBits .f32 0x41200000#32 * (D a p - D a n)) else 0 := by
  unfold term pos neg
  by_cases h1 : y (ix1 a) = y (ix1 p) ∧ a ≠ p
  · by_cases h2 : y (ix1 a) = y (ix1 n)
    · rw [if_pos h1, if_pos h2, if_neg (fun h : Valid y a p n => h.2 h2), mul_zero, mul_zero]
    · rw [if_pos h1, if_neg h2, if_pos (show Valid y a p n from ⟨h1, h2⟩), mul_one, mul_one]
  · rw [if_neg h1, if_neg (fun h : Valid y a p n => h1 h.1), zero_mul, mul_zero]

/-- The coercion of a finite sum of reals is the sum of the coercions. -/
theorem coe_sum_real {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The positive mask is the coercion of a real 0 or 1, -/
theorem pos_eq_coe (y : SY.Idx → BitVec 32) (a p : Fin 512) :
    pos y a p = ((if y (ix1 a) = y (ix1 p) ∧ a ≠ p then 1 else 0 : ℝ) : EReal) := by
  unfold pos; split_ifs <;> simp
/-- and so is the negative mask. -/
theorem neg_eq_coe (y : SY.Idx → BitVec 32) (a n : Fin 512) :
    neg y a n = ((if y (ix1 a) = y (ix1 n) then 0 else 1 : ℝ) : EReal) := by
  unfold neg; split_ifs <;> simp

/-- For one anchor the number of positives times the number of negatives is the number of valid pairs: the
    masks are real, so the product of the two sums distributes. -/
theorem pos_mul_neg_sum (y : SY.Idx → BitVec 32) (a : Fin 512) :
    (∑ p : Fin 512, pos y a p) * (∑ n : Fin 512, neg y a n)
      = ∑ p : Fin 512, ∑ n : Fin 512, (if Valid y a p n then (1 : EReal) else 0) := by
  simp only [pos_eq_coe, neg_eq_coe]
  rw [← coe_sum_real, ← coe_sum_real, ← EReal.coe_mul, Finset.sum_mul_sum, coe_sum_real]
  refine Finset.sum_congr rfl fun p _ => ?_
  rw [coe_sum_real]
  refine Finset.sum_congr rfl fun n _ => ?_
  by_cases h1 : y (ix1 a) = y (ix1 p) ∧ a ≠ p
  · by_cases h2 : y (ix1 a) = y (ix1 n)
    · rw [if_pos h1, if_pos h2, if_neg (fun h : Valid y a p n => h.2 h2), mul_zero, EReal.coe_zero]
    · rw [if_pos h1, if_neg h2, if_pos (show Valid y a p n from ⟨h1, h2⟩), mul_one, EReal.coe_one]
  · rw [if_neg h1, if_neg (fun h : Valid y a p n => h1 h.1), zero_mul, EReal.coe_zero]

/-- The separable count is the number of valid triplets. -/
theorem count_eq_sum_ite (y : SY.Idx → BitVec 32) :
    count (pos y) (neg y) = ∑ a : Fin 512, ∑ p : Fin 512, ∑ n : Fin 512, (if Valid y a p n then (1 : EReal) else 0) := by
  unfold count
  exact Finset.sum_congr rfl fun a _ => pos_mul_neg_sum y a

/-- A rank-3 index set of extents 512 is the product of its three coordinate ranges. -/
def idxEquiv3 : (⟨3, ![512, 512, 512]⟩ : Shape).Idx ≃ Fin 512 × Fin 512 × Fin 512 where
  toFun i := (i 0, i 1, i 2)
  invFun q := ix3 q.1 q.2.1 q.2.2
  left_inv i := (eq_ix3 i).symm
  right_inv _ := rfl

/-- A sum over the indices of a rank-3 array is the triple sum over its coordinates. -/
theorem sum_idx3 (f : (⟨3, ![512, 512, 512]⟩ : Shape).Idx → EReal) :
    ∑ j : (⟨3, ![512, 512, 512]⟩ : Shape).Idx, f j = ∑ a : Fin 512, ∑ p : Fin 512, ∑ n : Fin 512, f (ix3 a p n) := by
  rw [← Equiv.sum_comp idxEquiv3.symm f]
  simp only [Fintype.sum_prod_type]
  rfl

end Cert.Spec

end
-- ==== Proof.KI.Blocks.lean ====
/-
  Where the triplet kernel's windows read: at grid point t (of the 8 x 4 x 4 grid, row-major) the block of
  window 0 is rows 64 (t / 16) + a and columns 128 (t / 4 % 4) + p of the distance matrix, window 1's the
  same rows and columns 128 (t % 4) + n, windows 2 and 3 likewise of the two masks; and the distance
  kernel's one block is the whole feature matrix.
-/
import proofs.«134549_j42193758716072_1_alg».proof.Proof.KI.Region0
import proofs.«134549_j42193758716072_1_alg».proof.Proof.KI.Region1
import proofs.«134549_j42193758716072_1_alg».proof.Proof.SpecAlgebra
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen

variable {F : FTy → Type} [FloatOps F]
variable (V : (c : Dev nD) → (b : Ref sig .tc) → Buf (Elt F) ((c : Thread nD τ).loc b))

/-- A grid point of the triplet kernel as a number below 128. -/
def pt (t : Fin cfg1.N) : Fin 128 := ⟨t.val, lt_of_lt_of_eq t.isLt N_1⟩

/-- The block indices of the four input windows of the triplet kernel at grid point t, read off the printed
    index maps: all four take the row block t / 16; windows 0 and 2 take the column block t / 4 % 4, windows 1
    and 3 the column block t % 4. -/
theorem idx_facts1 : ∀ t : Fin cfg1.N,
    win1_0.index t (0 : Fin 2) = t.val / 16 ∧ win1_0.index t (1 : Fin 2) = t.val / 4 % 4
    ∧ win1_1.index t (0 : Fin 2) = t.val / 16 ∧ win1_1.index t (1 : Fin 2) = t.val % 4
    ∧ win1_2.index t (0 : Fin 2) = t.val / 16 ∧ win1_2.index t (1 : Fin 2) = t.val / 4 % 4
    ∧ win1_3.index t (0 : Fin 2) = t.val / 16 ∧ win1_3.index t (1 : Fin 2) = t.val % 4 :=
  (by decide +kernel : ∀ t : Fin grid1.N, _)

/-- The distance kernel's input window sits at block index (0, 0) at its one grid point. -/
theorem idx_facts0 : ∀ t : Fin cfg0.N,
    win0_0.index t (0 : Fin 2) = 0 ∧ win0_0.index t (1 : Fin 2) = 0 :=
  (by decide +kernel : ∀ t : Fin grid0.N, _)

theorem iblk1_0_apply (c : Dev nD) (t : Fin cfg1.N) (a : Fin 64) (p : Fin 128) :
    (iblk1 V c 0 t : Vec F S64x128 .f32) (ix2 a p) = (V c main_v0 : Vec F S512x512 .f32) (ix2 (Cert.Spec.rowOf (pt t) a) (Cert.Spec.posOf (pt t) p)) := by
  obtain ⟨e0, e1, -⟩ := idx_facts1 t
  show V c main_v0 (((cfg1.win 0).blk t).view.emb (ix2 a p)) = V c main_v0 (ix2 (Cert.Spec.rowOf (pt t) a) (Cert.Spec.posOf (pt t) p))
  refine congrArg (V c main_v0) ?_
  funext ax; apply Fin.ext
  match ax with
  | ⟨0, _⟩ => show win1_0.index t (0 : Fin 2) * 64 + 1 * a.val = 64 * (t.val / 16) + a.val; omega
  | ⟨1, _⟩ => show win1_0.index t (1 : Fin 2) * 128 + 1 * p.val = 128 * (t.val / 4 % 4) + p.val; omega

theorem iblk1_1_apply (c : Dev nD) (t : Fin cfg1.N) (a : Fin 64) (n : Fin 128) :
    (iblk1 V c 1 t : Vec F S64x128 .f32) (ix2 a n) = (V c main_v0 : Vec F S512x512 .f32) (ix2 (Cert.Spec.rowOf (pt t) a) (Cert.Spec.negOf (pt t) n)) := by
  obtain ⟨-, -, e0, e1, -⟩ := idx_facts1 t
  show V c main_v0 (((cfg1.win 1).blk t).view.emb (ix2 a n)) = V c main_v0 (ix2 (Cert.Spec.rowOf (pt t) a) (Cert.Spec.negOf (pt t) n))
  refine congrArg (V c main_v0) ?_
  funext ax; apply Fin.ext
  match ax with
  | ⟨0, _⟩ => show win1_1.index t (0 : Fin 2) * 64 + 1 * a.val = 64 * (t.val / 16) + a.val; omega
  | ⟨1, _⟩ => show win1_1.index t (1 : Fin 2) * 128 + 1 * n.val = 128 * (t.val % 4) + n.val; omega

theorem iblk1_2_apply (c : Dev nD) (t : Fin cfg1.N) (a : Fin 64) (p : Fin 128) :
    (iblk1 V c 2 t : Vec F S64x128 .f32) (ix2 a p) = (V c main_v13 : Vec F S512x512 .f32) (ix2 (Cert.Spec.rowOf (pt t) a) (Cert.Spec.posOf (pt t) p)) := by
  obtain ⟨-, -, -, -, e0, e1, -⟩ := idx_facts1 t
  show V c main_v13 (((cfg1.win 2).blk t).view.emb (ix2 a p)) = V c main_v13 (ix2 (Cert.Spec.rowOf (pt t) a) (Cert.Spec.posOf (pt t) p))
  refine congrArg (V c main_v13) ?_
  funext ax; apply Fin.ext
  match ax with
  | ⟨0, _⟩ => show win1_2.index t (0 : Fin 2) * 64 + 1 * a.val = 64 * (t.val / 16) + a.val; omega
  | ⟨1, _⟩ => show win1_2.index t (1 : Fin 2) * 128 + 1 * p.val = 128 * (t.val / 4 % 4) + p.val; omega

theorem iblk1_3_apply (c : Dev nD) (t : Fin cfg1.N) (a : Fin 64) (n : Fin 128) :
    (iblk1 V c 3 t : Vec F S64x128 .f32) (ix2 a n) = (V c main_v15 : Vec F S512x512 .f32) (ix2 (Cert.Spec.rowOf (pt t) a) (Cert.Spec.negOf (pt t) n)) := by
  obtain ⟨-, -, -, -, -, -, e0, e1⟩ := idx_facts1 t
  show V c main_v15 (((cfg1.win 3).blk t).view.emb (ix2 a n)) = V c main_v15 (ix2 (Cert.Spec.rowOf (pt t) a) (Cert.Spec.negOf (pt t) n))
  refine congrArg (V c main_v15) ?_
  funext ax; apply Fin.ext
  match ax with
  | ⟨0, _⟩ => show win1_3.index t (0 : Fin 2) * 64 + 1 * a.val = 64 * (t.val / 16) + a.val; omega
  | ⟨1, _⟩ => show win1_3.index t (1 : Fin 2) * 128 + 1 * n.val = 128 * (t.val % 4) + n.val; omega

/-- The distance kernel's input block is the whole feature matrix. -/
theorem iblk0_0_eq (c : Dev nD) (t : Fin cfg0.N) :
    (iblk0 V c 0 t : Vec F S512x256 .f32) = (V c main_arg0 : Vec F S512x256 .f32) := by
  obtain ⟨e0, e1⟩ := idx_facts0 t
  funext y
  show V c main_arg0 (((cfg0.win 0).blk t).view.emb y) = V c main_arg0 y
  refine congrArg (V c main_arg0) ?_
  funext ax; apply Fin.ext
  match ax with
  | ⟨0, _⟩ => show win0_0.index t (0 : Fin 2) * 512 + 1 * (y 0).val = (y 0).val; omega
  | ⟨1, _⟩ => show win0_0.index t (1 : Fin 2) * 256 + 1 * (y 1).val = (y 1).val; omega

end Cert.KernelIdeal.Hand

end
-- ==== Proof.KI.ArrAt.lean ====
/-
  What each kernel's region leaves in its output array: the distance kernel's one grid point writes its
  block, the whole matrix, back; the triplet kernel writes its 1x1 block back once, after the last of its
  128 points, holding what that point left.
-/
import proofs.«134549_j42193758716072_1_alg».proof.Proof.KI.Region0
import proofs.«134549_j42193758716072_1_alg».proof.Proof.KI.Region1
import proofs.«134549_j42193758716072_1_alg».proof.Proof.KI.Blocks
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen

variable {F : FTy → Type} [FloatOps F]
variable (V : (c : Dev nD) → (b : Ref sig .tc) → Buf (Elt F) ((c : Thread nD τ).loc b))

/-- The distance kernel's output window sits at block index (0, 0) at its one grid point. -/
theorem idx_out0 : ∀ t : Fin cfg0.N,
    win0_1.index t (0 : Fin 2) = 0 ∧ win0_1.index t (1 : Fin 2) = 0 :=
  (by decide +kernel : ∀ t : Fin grid0.N, _)

/-- The triplet kernel's output window sits at block index (0, 0) at every grid point. -/
theorem idx_out1 : ∀ t : Fin cfg1.N,
    win1_4.index t (0 : Fin 2) = 0 ∧ win1_4.index t (1 : Fin 2) = 0 :=
  (by decide +kernel : ∀ t : Fin grid1.N, _)

/-- What the distance kernel's point writes back is the whole-array block of the distance payload of the
    whole feature matrix: block (0, 0) of the 512x512 array read through zero offsets is the array. -/
theorem flushed0_1_eq (c : Dev nD) (t : Fin cfg0.N) (hf : (cfg0.win 1).flush t = true) :
    (dat0 V c).flushed 1 t = ((cfg0.win 1).blk t).view.read (Elt F) (out0_1 (V c main_arg0 : Vec F S512x256 .f32)) := by
  obtain ⟨e0, e1⟩ := idx_out0 t
  show (cfg0.win 1).cut (grid0.coords t) ((dat0 V c).after 1 t) = _
  rw [after0_1, iblk0_0_eq]
  have hz : (fun a => win0_1.index t a * main_v0.ty.shape.size a) = fun _ => 0 := funext fun a => by
    match a with
    | ⟨0, _⟩ => show win0_1.index t (0 : Fin 2) * 512 = 0; omega
    | ⟨1, _⟩ => show win0_1.index t (1 : Fin 2) * 512 = 0; omega
  exact (Memref.read_access_unit_zero (Elt F) main_v0 hz (fun a => by rw [congrFun hz a]; simp)
    (out0_1 (V c main_arg0 : Vec F S512x256 .f32))).symm

/-- The distance matrix after the first region is what its one point stored, computed from the whole feature matrix. -/
theorem arrAt0_out (c : Dev nD) :
    ((dat0 V c).arrAt 1 cfg0.N : Vec F S512x512 .f32) = out0_1 (V c main_arg0 : Vec F S512x256 .f32) :=
  (dat0 V c).arrAt_eq_of_cover 1 (out0_1 (V c main_arg0 : Vec F S512x256 .f32)) (flushed0_1_eq V c) fun i =>
    ⟨t0_0, flush0_1 t0_0, by
      obtain ⟨e0, e1⟩ := idx_out0 t0_0
      show i ∈ ((View.whole main_v0).slice (win0_1.rect t0_0)).set
      rw [View.set_slice_whole, Rect.mem_set_unit]
      intro a
      have h0 : (i 0 : Nat) < 512 := (i 0).isLt
      have h1 : (i 1 : Nat) < 512 := (i 1).isLt
      match a with
      | ⟨0, _⟩ => show win0_1.index t0_0 (0 : Fin 2) * 512 ≤ (i 0 : Nat) ∧ (i 0 : Nat) < win0_1.index t0_0 (0 : Fin 2) * 512 + 512; omega
      | ⟨1, _⟩ => show win0_1.index t0_0 (1 : Fin 2) * 512 ≤ (i 1 : Nat) ∧ (i 1 : Nat) < win0_1.index t0_0 (1 : Fin 2) * 512 + 512; omega⟩

/-- The last grid point of the triplet kernel. -/
def tLast1 : Fin cfg1.N := ⟨127, by rw [show cfg1.N = 128 from N_1]; decide⟩

/-- The triplet kernel's one write-back, at the last point, writes what that point left: block (0, 0) of the
    1x1 array read through zero offsets is the array. -/
theorem flushed1_4_eq (c : Dev nD) (t : Fin cfg1.N) (hf : (cfg1.win 4).flush t = true) :
    (dat1 V c).flushed 4 t = ((cfg1.win 4).blk t).view.read (Elt F)
      (outsAt1 V c 127 (by rw [show cfg1.N = 128 from N_1]; decide)) := by
  have hN : cfg1.N = 128 := N_1
  have h127 : t.val = 127 := by have := (flush1_4 t).mp hf; have := t.isLt; omega
  obtain rfl : t = tLast1 := Fin.ext h127
  obtain ⟨e0, e1⟩ := idx_out1 tLast1
  show (cfg1.win 4).cut (grid1.coords tLast1) ((dat1 V c).after 4 tLast1) = _
  rw [after1_4]
  have hz : (fun a => win1_4.index tLast1 a * main_v20.ty.shape.size a) = fun _ => 0 := funext fun a => by
    match a with
    | ⟨0, _⟩ => show win1_4.index tLast1 (0 : Fin 2) * 1 = 0; omega
    | ⟨1, _⟩ => show win1_4.index tLast1 (1 : Fin 2) * 1 = 0; omega
  exact (Memref.read_access_unit_zero (Elt F) main_v20 hz (fun a => by rw [congrFun hz a]; simp)
    (outsAt1 V c 127 (by rw [show cfg1.N = 128 from N_1]; decide))).symm

/-- The 1x1 total after the second region is what the last point left in the output block. -/
theorem arrAt1_out (c : Dev nD) :
    ((dat1 V c).arrAt 4 cfg1.N : Vec F S1x1 .f32) = outsAt1 V c 127 (by rw [show cfg1.N = 128 from N_1]; decide) :=
  (dat1 V c).arrAt_eq_of_cover 4 (outsAt1 V c 127 (by rw [show cfg1.N = 128 from N_1]; decide)) (flushed1_4_eq V c) fun i =>
    ⟨tLast1, (flush1_4 tLast1).mpr rfl, by
      obtain ⟨e0, e1⟩ := idx_out1 tLast1
      show i ∈ ((View.whole main_v20).slice (win1_4.rect tLast1)).set
      rw [View.set_slice_whole, Rect.mem_set_unit]
      intro a
      have h0 : (i 0 : Nat) < 1 := (i 0).isLt
      have h1 : (i 1 : Nat) < 1 := (i 1).isLt
      match a with
      | ⟨0, _⟩ => show win1_4.index tLast1 (0 : Fin 2) * 1 ≤ (i 0 : Nat) ∧ (i 0 : Nat) < win1_4.index tLast1 (0 : Fin 2) * 1 + 1; omega
      | ⟨1, _⟩ => show win1_4.index tLast1 (1 : Fin 2) * 1 ≤ (i 1 : Nat) ∧ (i 1 : Nat) < win1_4.index tLast1 (1 : Fin 2) * 1 + 1; omega⟩

end Cert.KernelIdeal.Hand

end
-- ==== Proof.KI.Val1.lean ====
/-
  The triplet kernel's payloads at the ideal instance: a block's sum of weighted losses as a triple sum over the block's coordinates, the zero block, and the accumulation as an addition.
-/
import proofs.«134549_j42193758716072_1_alg».proof.Proof.Gen.KernelIdeal.Skeleton
import proofs.«134549_j42193758716072_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.HandValue

open Idealize.ShloMosaic Idealize.ShloMosaic.TcCoe Idealize.ShloMosaic.ValueIdx
open Cert.KernelIdeal Cert.KernelIdeal.Gen

/-- A [64,128] array viewed [64,128,1] reads, at (a, p, u), the array at (a, p). -/
theorem cast_col (x : FVec Ideal S64x128 .f32) (a : Fin 64) (p : Fin 128) (u : Fin 1) :
    shapeCast S64x128x1 x shapeCasts_S64x128_S64x128x1 (ix3 a p u) = x (ix2 a p) :=
  shapeCast_apply x shapeCasts_S64x128_S64x128x1 _ _ (by
    have hu : u.val = 0 := by omega
    rw [Shape.rowMajor_val_three, Shape.rowMajor_val_two]
    show a.val * 128 + p.val = (a.val * 128 + p.val) * 1 + u.val
    omega)

/-- A [64,128] array viewed [64,1,128] reads, at (a, u, n), the array at (a, n). -/
theorem cast_row (x : FVec Ideal S64x128 .f32) (a : Fin 64) (u : Fin 1) (n : Fin 128) :
    shapeCast S64x1x128 x shapeCasts_S64x128_S64x1x128 (ix3 a u n) = x (ix2 a n) :=
  shapeCast_apply x shapeCasts_S64x128_S64x1x128 _ _ (by
    have hu : u.val = 0 := by omega
    rw [Shape.rowMajor_val_three, Shape.rowMajor_val_two]
    show a.val * 128 + n.val = (a.val * 1 + u.val) * 128 + n.val
    omega)

/-- A [64,128,1] array broadcast along its last axis reads, at (a, p, n), the array at (a, p, 0). -/
theorem bcast_col (v : FVec Ideal S64x128x1 .f32) (a : Fin 64) (p n : Fin 128) :
    broadcastTo S64x128x128 v broadcasts_S64x128x1_S64x128x128 (ix3 a p n) = v (ix3 a p (0 : Fin 1)) :=
  broadcastTo_apply v broadcasts_S64x128x1_S64x128x128 (ix3 a p n) (ix3 a p (0 : Fin 1)) fun ax => by
    match ax with
    | ⟨0, _⟩ => rfl
    | ⟨1, _⟩ => rfl
    | ⟨2, _⟩ => rfl

/-- A [64,1,128] array broadcast along its middle axis reads, at (a, p, n), the array at (a, 0, n). -/
theorem bcast_row (v : FVec Ideal S64x1x128 .f32) (a : Fin 64) (p n : Fin 128) :
    broadcastTo S64x128x128 v broadcasts_S64x1x128_S64x128x128 (ix3 a p n) = v (ix3 a (0 : Fin 1) n) :=
  broadcastTo_apply v broadcasts_S64x1x128_S64x128x128 (ix3 a p n) (ix3 a (0 : Fin 1) n) fun ax => by
    match ax with
    | ⟨0, _⟩ => rfl
    | ⟨1, _⟩ => rfl
    | ⟨2, _⟩ => rfl

/-- The sum over the last axis of a [64,128,128] array, at (a, p). -/
theorem red_last (src : FVec Ideal S64x128x128 .f32) (a : Fin 64) (p : Fin 128) :
    multiReduction (F := Ideal) .add [2] S64x128 src 0x00000000#32 reduces_S64x128x128_S64x128 (.inl rfl) rfl (ix2 a p)
      = ∑ n : Fin 128, src (ix3 a p n) :=
  (Ideal.multiReduction_add_single src 0x00000000#32 reduces_S64x128x128_S64x128 (.inl rfl) rfl (ix2 a p)).trans
    (Finset.sum_congr rfl fun n _ => congrArg src (funext fun d => Fin.ext (by
      match d with
      | ⟨0, _⟩ => rfl
      | ⟨1, _⟩ => rfl
      | ⟨2, _⟩ => rfl)))

/-- The sum over the last axis of a [64,128] array, at a. -/
theorem red_rows (src : FVec Ideal S64x128 .f32) (a : Fin 64) :
    multiReduction (F := Ideal) .add [1] S64 src 0x00000000#32 reduces_S64x128_S64 (.inl rfl) rfl (ix1 a)
      = ∑ p : Fin 128, src (ix2 a p) :=
  (Ideal.multiReduction_add_single src 0x00000000#32 reduces_S64x128_S64 (.inl rfl) rfl (ix1 a)).trans
    (Finset.sum_congr rfl fun p _ => congrArg src (funext fun d => Fin.ext (by
      match d with
      | ⟨0, _⟩ => rfl
      | ⟨1, _⟩ => rfl)))

/-- The sum over the last axis of a [1,64] array, at u. -/
theorem red_one (src : FVec Ideal S1x64 .f32) (u : Fin 1) :
    multiReduction (F := Ideal) .add [1] S1 src 0x00000000#32 reduces_S1x64_S1 (.inl rfl) rfl (ix1 u)
      = ∑ a : Fin 64, src (ix2 u a) :=
  (Ideal.multiReduction_add_single src 0x00000000#32 reduces_S1x64_S1 (.inl rfl) rfl (ix1 u)).trans
    (Finset.sum_congr rfl fun a _ => congrArg src (funext fun d => Fin.ext (by
      match d with
      | ⟨0, _⟩ => rfl
      | ⟨1, _⟩ => rfl)))

/-- The element taken at position (0, 0) of a [1,1] array. -/
theorem extract_origin (v : FVec Ideal S1x1 .f32) :
    extractAt ![0, 0] v inpos_S1x1_p0_0 = v (ix2 (0 : Fin 1) (0 : Fin 1)) :=
  congrArg v (funext fun d => Fin.ext (by
    match d with
    | ⟨0, _⟩ => rfl
    | ⟨1, _⟩ => rfl))

/-- The chain of three sums, two casts and the extraction, over any [64,128,128] array: the triple sum of its entries. -/
theorem total_sum (w : FVec Ideal S64x128x128 .f32) (i : S1x1.Idx) :
    broadcast S1x1 (extractAt ![0, 0]
      (shapeCast S1x1
        (multiReduction (F := Ideal) .add [1] S1
          (shapeCast S1x64
            (multiReduction (F := Ideal) .add [1] S64
              (multiReduction (F := Ideal) .add [2] S64x128 w 0x00000000#32 reduces_S64x128x128_S64x128 (.inl rfl) rfl)
              0x00000000#32 reduces_S64x128_S64 (.inl rfl) rfl)
            shapeCasts_S64_S1x64)
          0x00000000#32 reduces_S1x64_S1 (.inl rfl) rfl)
        shapeCasts_S1_S1x1) inpos_S1x1_p0_0) i
      = ∑ a : Fin 64, ∑ p : Fin 128, ∑ n : Fin 128, w (ix3 a p n) := by
  rw [broadcast_apply, extract_origin, shapeCast_a_1a_apply, red_one]
  refine Finset.sum_congr rfl fun a _ => ?_
  rw [shapeCast_a_1a_apply, red_rows]
  refine Finset.sum_congr rfl fun p _ => ?_
  rw [red_last]

/-- The summand array at (a, p, n). -/
theorem summand_apply (x0 x1 x2 x3 : FVec Ideal S64x128 .f32) (a : Fin 64) (p n : Fin 128) :
    mulf
      (logistic (mulf (broadcast S64x128x128 (Scalar.ofBits (F := Ideal) .f32 0x41200000#32))
        (subf (broadcastTo S64x128x128 (shapeCast S64x128x1 x0 shapeCasts_S64x128_S64x128x1) broadcasts_S64x128x1_S64x128x128)
          (broadcastTo S64x128x128 (shapeCast S64x1x128 x1 shapeCasts_S64x128_S64x1x128) broadcasts_S64x1x128_S64x128x128))))
      (mulf (broadcastTo S64x128x128 (shapeCast S64x128x1 x2 shapeCasts_S64x128_S64x128x1) broadcasts_S64x128x1_S64x128x128)
        (broadcastTo S64x128x128 (shapeCast S64x1x128 x3 shapeCasts_S64x128_S64x1x128) broadcasts_S64x1x128_S64x128x128))
      (ix3 a p n)
      = Ideal.logistic (Ideal.ofBits .f32 0x41200000#32 * (x0 (ix2 a p) - x1 (ix2 a n))) * (x2 (ix2 a p) * x3 (ix2 a n)) := by
  show Ideal.logistic (Ideal.ofBits .f32 0x41200000#32
        * (broadcastTo S64x128x128 (shapeCast S64x128x1 x0 shapeCasts_S64x128_S64x128x1) broadcasts_S64x128x1_S64x128x128 (ix3 a p n)
          - broadcastTo S64x128x128 (shapeCast S64x1x128 x1 shapeCasts_S64x128_S64x1x128) broadcasts_S64x1x128_S64x128x128 (ix3 a p n)))
      * (broadcastTo S64x128x128 (shapeCast S64x128x1 x2 shapeCasts_S64x128_S64x128x1) broadcasts_S64x128x1_S64x128x128 (ix3 a p n)
        * broadcastTo S64x128x128 (shapeCast S64x1x128 x3 shapeCasts_S64x128_S64x1x128) broadcasts_S64x1x128_S64x128x128 (ix3 a p n)) = _
  rw [bcast_col, bcast_row, bcast_col, bcast_row, cast_col, cast_row, cast_col, cast_row]

/-- The one entry of what a grid point adds: the sum over the block's anchors, positives and negatives of the logistic of ten times the distance gap, times the two masks. -/
theorem k1_pay4_sum (x0 x1 x2 x3 : Vec Ideal S64x128 .f32) (i : S1x1.Idx) :
    k1_pay4 (F := Ideal) x0 x1 x2 x3 i
      = ∑ a : Fin 64, ∑ p : Fin 128, ∑ n : Fin 128,
          Ideal.logistic (Ideal.ofBits .f32 0x41200000#32 * (x0 (ix2 a p) - x1 (ix2 a n))) * (x2 (ix2 a p) * x3 (ix2 a n)) := by
  unfold k1_pay4
  rw [shapeCast_self x0, shapeCast_self x1, shapeCast_self x2, shapeCast_self x3]
  refine (total_sum _ i).trans ?_
  exact Finset.sum_congr rfl fun a _ => Finset.sum_congr rfl fun p _ => Finset.sum_congr rfl fun n _ =>
    summand_apply x0 x1 x2 x3 a p n

/-- The reset block is zero. -/
theorem k1_pay2_zero (i : S1x1.Idx) : k1_pay2 (F := Ideal) i = 0 := by
  unfold k1_pay2
  exact Ideal.ofBits_zero_f32

/-- The stored block is the block read back plus the point's sum. -/
theorem k1_pay1_add (prev : Vec Ideal S1x1 .f32) (v : FVec Ideal S1x1 .f32) (i : S1x1.Idx) :
    k1_pay1 (F := Ideal) (k1_pay3 (F := Ideal) prev) v i = prev i + v i := by
  unfold k1_pay1 k1_pay3
  rw [shapeCast_self prev]
  rfl

end Cert.KernelIdeal.HandValue

end
-- ==== Proof.KI.Acc.lean ====
/-
  The triplet kernel's accumulator, point by point, at the ideal instance: after grid point n the 1x1 output
  block holds the sum of the first n + 1 blocks' sums of weighted losses, the blocks read off the distance
  matrix and the two masks as the region finds them.
-/
import proofs.«134549_j42193758716072_1_alg».proof.Proof.KI.Region1
import proofs.«134549_j42193758716072_1_alg».proof.Proof.KI.Blocks
import proofs.«134549_j42193758716072_1_alg».proof.Proof.KI.Val1
import proofs.«134549_j42193758716072_1_alg».proof.Proof.SpecAlgebra

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen Cert.KernelIdeal.HandValue

variable (V : (c : Dev nD) → (b : Ref sig .tc) → Buf (Elt Ideal) ((c : Thread nD τ).loc b))

/-- The distance matrix and the two masks as the region finds them, by coordinates. -/
def Dm (c : Dev nD) (a p : Fin 512) : EReal := (V c main_v0 : Vec Ideal S512x512 .f32) (ix2 a p)
def Pm (c : Dev nD) (a p : Fin 512) : EReal := (V c main_v13 : Vec Ideal S512x512 .f32) (ix2 a p)
def Nm (c : Dev nD) (a n : Fin 512) : EReal := (V c main_v15 : Vec Ideal S512x512 .f32) (ix2 a n)

/-- What a grid point adds is its block's sum of weighted losses. -/
theorem k1_pay4_block (c : Dev nD) (t : Fin cfg1.N) (i : S1x1.Idx) :
    k1_pay4 (F := Ideal) (iblk1 V c 0 t) (iblk1 V c 1 t) (iblk1 V c 2 t) (iblk1 V c 3 t) i
      = Cert.Spec.blockSum (Dm V c) (Pm V c) (Nm V c) (pt t) := by
  refine (k1_pay4_sum (iblk1 V c 0 t) (iblk1 V c 1 t) (iblk1 V c 2 t) (iblk1 V c 3 t) i).trans ?_
  unfold Cert.Spec.blockSum
  refine Finset.sum_congr rfl fun a _ => Finset.sum_congr rfl fun p _ => Finset.sum_congr rfl fun n _ => ?_
  rw [iblk1_0_apply V c t a p, iblk1_1_apply V c t a n, iblk1_2_apply V c t a p, iblk1_3_apply V c t a n]
  rfl

/-- After point n the accumulator holds the first n + 1 blocks' sums, given the two equations of the accumulation. -/
theorem outsAt1_acc (c : Dev nD)
    (hz : ∀ h0 : 0 < cfg1.N, outsAt1 V c 0 h0 = k1_pay1 (k1_pay3 (k1_pay2 (F := Ideal))) (k1_pay4 (iblk1 V c 0 ⟨0, h0⟩) (iblk1 V c 1 ⟨0, h0⟩) (iblk1 V c 2 ⟨0, h0⟩) (iblk1 V c 3 ⟨0, h0⟩)))
    (hs : ∀ (n : ℕ) (hn : n + 1 < cfg1.N), outsAt1 V c (n + 1) hn = k1_pay1 (k1_pay3 (outsAt1 V c n (Nat.lt_of_succ_lt hn))) (k1_pay4 (iblk1 V c 0 ⟨n + 1, hn⟩) (iblk1 V c 1 ⟨n + 1, hn⟩) (iblk1 V c 2 ⟨n + 1, hn⟩) (iblk1 V c 3 ⟨n + 1, hn⟩)))
    (n : ℕ) (hn : n < cfg1.N) (i : S1x1.Idx) :
    outsAt1 V c n hn i = Cert.Spec.accTo (Dm V c) (Pm V c) (Nm V c) (n + 1) := by
  induction n with
  | zero =>
    refine (congrFun (hz hn) i).trans ?_
    refine (k1_pay1_add _ _ i).trans ?_
    rw [k1_pay2_zero, zero_add, k1_pay4_block V c ⟨0, hn⟩ i]
    show _ = Cert.Spec.accTo (Dm V c) (Pm V c) (Nm V c) 0
      + (if h : 0 < 128 then Cert.Spec.blockSum (Dm V c) (Pm V c) (Nm V c) ⟨0, h⟩ else 0)
    rw [dif_pos (by norm_num : (0 : ℕ) < 128)]
    show _ = 0 + _
    rw [zero_add]
    rfl
  | succ n ih =>
    have h128 : n + 1 < 128 := lt_of_lt_of_eq hn N_1
    refine (congrFun (hs n hn) i).trans ?_
    refine (k1_pay1_add _ _ i).trans ?_
    rw [ih (Nat.lt_of_succ_lt hn), k1_pay4_block V c ⟨n + 1, hn⟩ i]
    show _ = Cert.Spec.accTo (Dm V c) (Pm V c) (Nm V c) (n + 1)
      + (if h : n + 1 < 128 then Cert.Spec.blockSum (Dm V c) (Pm V c) (Nm V c) ⟨n + 1, h⟩ else 0)
    rw [dif_pos h128]
    rfl

end Cert.KernelIdeal.Hand

end
-- ==== Proof.KI.Val0.lean ====
/-
  The distance kernel's stored value at the ideal instance, entry by entry: the specification's clamped Euclidean distance of two rows of the loaded block.
-/
import proofs.«134549_j42193758716072_1_alg».proof.Proof.Gen.KernelIdeal.Skeleton
import proofs.«134549_j42193758716072_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.HandValue

open Idealize.ShloMosaic Idealize.ShloMosaic.TcCoe Idealize.ShloMosaic.ValueIdx
open Cert.KernelIdeal Cert.KernelIdeal.Gen

variable {α : Type}

/-! ## The layout operations at explicit coordinates -/

/-- A length-512 vector viewed as a 512x1 column reads, at row i, its entry i. -/
theorem pdist_column_apply (x : S512.Idx → α) (h : S512.ShapeCasts S512x1) (i : Fin 512) (u : Fin 1) :
    shapeCast S512x1 x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A 512x1 column transposed to a 1x512 row reads, at column j, the column's row j. -/
theorem pdist_rowOfColumn_apply (x : S512x1.Idx → α) (h : S512x1.Transposes [1, 0] S1x512) (u : Fin 1) (j : Fin 512) :
    transpose S1x512 [1, 0] x h (ix2 u j) = x (ix2 j (0 : Fin 1)) :=
  transpose_apply [1, 0] x h (ix2 u j) (ix2 j (0 : Fin 1)) (fun b => match b with
    | ⟨0, _⟩ => by have hu : u.val = 0 := by omega
                   exact hu.symm
    | ⟨1, _⟩ => rfl)

/-- A 512x1 column spread over 512 columns reads, at (i, j), the column's row i. -/
theorem pdist_spreadColumn_apply (x : S512x1.Idx → α) (h : S512x1.Broadcasts S512x512) (i j : Fin 512) :
    broadcastTo S512x512 x h (ix2 i j) = x (ix2 i (0 : Fin 1)) := by
  refine broadcastTo_apply x h (ix2 i j) (ix2 i (0 : Fin 1)) fun ax => ?_
  match ax with
  | ⟨0, _⟩ =>
    show i.val = if (512 : ℕ) = 1 then 0 else i.val
    rw [if_neg (by decide)]
  | ⟨1, _⟩ => rfl

/-! ## The row sums -/

/-- Summing a 512x256 array along each row: entry i is the sum of row i. -/
theorem pdist_rowSum_apply (w : FVec Ideal S512x256 .f32) (i : Fin 512) :
    multiReduction (F := Ideal) .add [1] S512 w 0x00000000#32 reduces_S512x256_S512 (.inl rfl) rfl (ix1 i)
      = ∑ k : Fin 256, w (ix2 i k) := by
  refine (Ideal.multiReduction_add_single w 0x00000000#32 reduces_S512x256_S512 (.inl rfl) rfl (ix1 i)).trans ?_
  refine Finset.sum_congr rfl fun k _ => congrArg w (funext fun a => Fin.ext ?_)
  match a with
  | ⟨0, _⟩ => rfl
  | ⟨1, _⟩ => rfl

/-! ## The product of the block with its own transpose -/

theorem pdist_selfProduct_lhs_0 (i : S512x512.Idx) (q : dot_S512x256_S512x256_S512x512_1_1_0_0_n_n.contr.Idx) :
    (dot_S512x256_S512x256_S512x512_1_1_0_0_n_n.lhsIdx i q 0).val = (i 0).val := by
  unfold DotDims.lhsIdx
  rw [dif_neg (show ¬(0 : Fin S512x256.rank) ∈ dot_S512x256_S512x256_S512x512_1_1_0_0_n_n.lhsBatch by decide), dif_pos (show (0 : Fin S512x256.rank) ∈ dot_S512x256_S512x256_S512x512_1_1_0_0_n_n.lhsNonContracting by decide)]
  rfl
theorem pdist_selfProduct_lhs_1 (i : S512x512.Idx) (q : dot_S512x256_S512x256_S512x512_1_1_0_0_n_n.contr.Idx) :
    (dot_S512x256_S512x256_S512x512_1_1_0_0_n_n.lhsIdx i q 1).val = (q ⟨0, by decide⟩).val :=
  dot_S512x256_S512x256_S512x512_1_1_0_0_n_n.lhsIdx_val_of_single rfl i q
theorem pdist_selfProduct_rhs_0 (i : S512x512.Idx) (q : dot_S512x256_S512x256_S512x512_1_1_0_0_n_n.contr.Idx) :
    (dot_S512x256_S512x256_S512x512_1_1_0_0_n_n.rhsIdx i q 0).val = (i 1).val := by
  unfold DotDims.rhsIdx
  rw [dif_neg (show ¬(0 : Fin S512x256.rank) ∈ dot_S512x256_S512x256_S512x512_1_1_0_0_n_n.rhsBatch by decide), dif_pos (show (0 : Fin S512x256.rank) ∈ dot_S512x256_S512x256_S512x512_1_1_0_0_n_n.rhsNonContracting by decide)]
  rfl
theorem pdist_selfProduct_rhs_1 (i : S512x512.Idx) (q : dot_S512x256_S512x256_S512x512_1_1_0_0_n_n.contr.Idx) :
    (dot_S512x256_S512x256_S512x512_1_1_0_0_n_n.rhsIdx i q 1).val = (q ⟨0, by decide⟩).val :=
  dot_S512x256_S512x256_S512x512_1_1_0_0_n_n.rhsIdx_val_of_single rfl i q

/-- The matrix product contracting the second axis of both operands, into the zero matrix: entry (i, j) is the
    inner product of row i of the left operand with row j of the right. -/
theorem pdist_selfProduct_apply (a b : FVec Ideal S512x256 .bf16) (i j : Fin 512) :
    matmul dot_S512x256_S512x256_S512x512_1_1_0_0_n_n none a b (constant (F := Ideal) S512x512 .f32 0x00000000#32) (ix2 i j)
      = ∑ k : Fin 256, a (ix2 i k) * b (ix2 j k) := by
  refine (Ideal.matmul_constant_zero_apply dot_S512x256_S512x256_S512x512_1_1_0_0_n_n none a b (ix2 i j)).trans ?_
  rw [← Equiv.sum_comp (ValueIdx.contrEquiv1 dot_S512x256_S512x256_S512x512_1_1_0_0_n_n 256 rfl rfl).symm]
  refine Finset.sum_congr rfl fun k _ => ?_
  have hk := ValueIdx.contrEquiv1_symm_val dot_S512x256_S512x256_S512x512_1_1_0_0_n_n 256 rfl rfl k
  have el : dot_S512x256_S512x256_S512x512_1_1_0_0_n_n.lhsIdx (ix2 i j) ((ValueIdx.contrEquiv1 dot_S512x256_S512x256_S512x512_1_1_0_0_n_n 256 rfl rfl).symm k) = ix2 i k := funext fun ax => Fin.ext (by
    match ax with
    | ⟨0, _⟩ => exact pdist_selfProduct_lhs_0 _ _
    | ⟨1, _⟩ => exact (pdist_selfProduct_lhs_1 _ _).trans hk)
  have er : dot_S512x256_S512x256_S512x512_1_1_0_0_n_n.rhsIdx (ix2 i j) ((ValueIdx.contrEquiv1 dot_S512x256_S512x256_S512x512_1_1_0_0_n_n 256 rfl rfl).symm k) = ix2 j k := funext fun ax => Fin.ext (by
    match ax with
    | ⟨0, _⟩ => exact pdist_selfProduct_rhs_0 _ _
    | ⟨1, _⟩ => exact (pdist_selfProduct_rhs_1 _ _).trans hk)
  rw [el, er]

/-! ## The stored value -/

omit α in
/-- The square root of a vector, lane by lane. -/
theorem pdist_sqrt_at {s : Shape} {φ : FTy} (a : FVec Ideal s φ) (i : s.Idx) : sqrt a i = Ideal.sqrt (a i) := rfl

/-- Entry (i, j) of what the distance kernel stores is the specification's distance of rows i and j of the block it loaded. -/
theorem k0_pay1_dist (v0 : Vec Ideal S512x256 .f32) (i j : Fin 512) :
    k0_pay1 (F := Ideal) v0 (ix2 i j) = Cert.Spec.dist v0 i j := by
  unfold k0_pay1 Cert.Spec.dist Cert.Spec.sqn Cert.Spec.gram
  -- the lane-by-lane operations at (i, j); the two spreads, the column view and the product at their coordinates
  simp only [pdist_sqrt_at, maximumf_apply, subf_apply, addf_apply, mulf_apply, broadcast_apply, truncf_apply,
    pdist_spreadColumn_apply, pdist_column_apply, broadcastTo_1b_ab_apply, pdist_selfProduct_apply]
  -- the row of squared lengths read at column j, then both squared lengths as sums over their rows
  rw [pdist_rowOfColumn_apply, pdist_column_apply, pdist_rowSum_apply, pdist_rowSum_apply]
  rfl

end Cert.KernelIdeal.HandValue

end
-- ==== Proof.KI.ValHost.lean ====
/-
  What the host operations between and after the two kernels compute, at the ideal instance, from any
  contents `W` of the buffers before them: the positive mask (same label, different row) and the negative
  mask (different label) as 0/1 numbers, the separable count of valid triplets, the distance matrix left
  untouched; and after the second kernel the reshaped total divided by the count.
-/
import proofs.«134549_j42193758716072_1_alg».proof.Proof.Gen.KernelIdeal.Launch
import proofs.«134549_j42193758716072_1_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate

noncomputable section

namespace Cert.KernelIdeal.HandValue

open Idealize.ShloMosaic Idealize.ShloMosaic.TcCoe Idealize.ShloMosaic.ValueIdx
open Cert.KernelIdeal Cert.KernelIdeal.Gen

/-! ## The host stretch's terms over the labels -/

/-- The same-label bit: the labels laid along the rows compared with the labels laid along the columns. -/
def sameBit (y : Vec Ideal S512 .i32) : Vec Ideal S512x512 .i1 :=
  cmpi .eq
    (broadcastInDim S512x512 ![0, 1] bcast_S512x1_S512x512_0_1 (broadcastInDim S512x1 ![0] bcast_S512_S512x1_0 y))
    (broadcastInDim S512x512 ![0, 1] bcast_S1x512_S512x512_0_1 (broadcastInDim S1x512 ![1] bcast_S512_S1x512_1 y))

/-- The off-diagonal bit: the row number plus zero compared with the column number, negated. -/
def offDiagBit : Vec Ideal S512x512 .i1 :=
  noti (cmpi .eq (addi (iotaInDim S512x512 32 0) (broadcastInDim S512x512 ![] bcast_S_S512x512 (constantI S_ 32 0#32)))
    (iotaInDim S512x512 32 1))

/-- The positive mask as numbers. -/
def posTerm (y : Vec Ideal S512 .i32) : Vec Ideal S512x512 .f32 :=
  uitofp (F := Ideal) .f32 (andi (sameBit y) offDiagBit)

/-- The negative mask as numbers. -/
def negTerm (y : Vec Ideal S512 .i32) : Vec Ideal S512x512 .f32 :=
  uitofp (F := Ideal) .f32 (noti (sameBit y))

/-- The count: the row sums of the two masks multiplied and summed. -/
def countTerm (y : Vec Ideal S512 .i32) : Vec Ideal S_ .f32 :=
  Host.reduceAdd
    (mulf (Host.reduceAdd (posTerm y) (constant (F := Ideal) S_ .f32 0x00000000#32) reducesTo_S512x512_S512_d1 h_S_)
      (Host.reduceAdd (negTerm y) (constant (F := Ideal) S_ .f32 0x00000000#32) reducesTo_S512x512_S512_d1 h_S_))
    (constant (F := Ideal) S_ .f32 0x00000000#32) reducesTo_S512_S_d0 h_S_

/-! ## The terms read at an index -/

/-- The word compare for equality as a bit: 1 when the words are equal. -/
private theorem cmpi_eq_ite {w : Nat} (u v : BitVec w) : IntOp.cmpi .eq u v = if u = v then 1#1 else 0#1 := by
  by_cases h : u = v
  · rw [if_pos h]; exact StableHlo.Predicate.cmpi_eq_iff.2 h
  · rw [if_neg h]
    rcases BitVec.eq_zero_or_eq_one (IntOp.cmpi .eq u v) with e | e
    · exact e
    · exact absurd (StableHlo.Predicate.cmpi_eq_iff.1 e) h

/-- A bit as a number: 1 for the set bit, 0 for the clear one. -/
private theorem uitofp_bit (b : BitVec 1) : FloatOps.uitofp (F := Ideal) .f32 b = if b = 1#1 then 1 else 0 := by
  rcases BitVec.eq_zero_or_eq_one b with rfl | rfl
  · show (((0#1 : BitVec 1).toNat : ℝ) : EReal) = _
    simp
  · show (((1#1 : BitVec 1).toNat : ℝ) : EReal) = _
    simp

theorem sameBit_apply (y : Vec Ideal S512 .i32) (a p : Fin 512) :
    sameBit y (ix2 a p) = if y (ix1 a) = y (ix1 p) then 1#1 else 0#1 := by
  have h1 : broadcastInDim S512x512 ![0, 1] bcast_S512x1_S512x512_0_1 (broadcastInDim S512x1 ![0] bcast_S512_S512x1_0 y) (ix2 a p) = y (ix1 a) :=
    (broadcastInDim_apply _ bcast_S512x1_S512x512_0_1 _ (ix2 a p) (ix2 a (0 : Fin 1)) (fun d => match d with
      | ⟨0, _⟩ => by show a.val = if (512 : Nat) = 1 then 0 else a.val; rw [if_neg (by decide)]
      | ⟨1, _⟩ => by show 0 = if (1 : Nat) = 1 then 0 else p.val; rw [if_pos rfl])).trans
    (broadcastInDim_apply _ bcast_S512_S512x1_0 y (ix2 a (0 : Fin 1)) (ix1 a) (fun d => match d with
      | ⟨0, _⟩ => by show a.val = if (512 : Nat) = 1 then 0 else a.val; rw [if_neg (by decide)]))
  have h2 : broadcastInDim S512x512 ![0, 1] bcast_S1x512_S512x512_0_1 (broadcastInDim S1x512 ![1] bcast_S512_S1x512_1 y) (ix2 a p) = y (ix1 p) :=
    (broadcastInDim_apply _ bcast_S1x512_S512x512_0_1 _ (ix2 a p) (ix2 (0 : Fin 1) p) (fun d => match d with
      | ⟨0, _⟩ => by show 0 = if (1 : Nat) = 1 then 0 else a.val; rw [if_pos rfl]
      | ⟨1, _⟩ => by show p.val = if (512 : Nat) = 1 then 0 else p.val; rw [if_neg (by decide)])).trans
    (broadcastInDim_apply _ bcast_S512_S1x512_1 y (ix2 (0 : Fin 1) p) (ix1 p) (fun d => match d with
      | ⟨0, _⟩ => by show p.val = if (512 : Nat) = 1 then 0 else p.val; rw [if_neg (by decide)]))
  rw [← cmpi_eq_ite, ← h1, ← h2]
  rfl

theorem offDiagBit_apply (a p : Fin 512) : offDiagBit (ix2 a p) = if a = p then 0#1 else 1#1 := by
  have h0 : broadcastInDim S512x512 ![] bcast_S_S512x512 (constantI S_ 32 0#32) (ix2 a p) = 0#32 :=
    StableHlo.Predicate.bcast_scalar bcast_S_S512x512 h_S_ _ _
  have e : offDiagBit (ix2 a p) = ~~~(IntOp.cmpi .eq (BitVec.ofNat 32 a.val + broadcastInDim S512x512 ![] bcast_S_S512x512 (constantI S_ 32 0#32) (ix2 a p)) (BitVec.ofNat 32 p.val)) := rfl
  rw [e, h0, BitVec.add_zero, cmpi_eq_ite]
  have hiff : BitVec.ofNat 32 a.val = BitVec.ofNat 32 p.val ↔ a = p := by
    constructor
    · intro h
      have := congrArg BitVec.toNat h
      simp only [BitVec.toNat_ofNat] at this
      have ha := a.isLt; have hp := p.isLt
      exact Fin.ext (by omega)
    · rintro rfl; rfl
  by_cases h : a = p
  · rw [if_pos (hiff.2 h), if_pos h]; rfl
  · rw [if_neg (fun h' => h (hiff.1 h')), if_neg h]; rfl

theorem posTerm_apply (y : Vec Ideal S512 .i32) (a p : Fin 512) : posTerm y (ix2 a p) = Cert.Spec.pos y a p := by
  have e : posTerm y (ix2 a p) = FloatOps.uitofp (F := Ideal) .f32 (sameBit y (ix2 a p) &&& offDiagBit (ix2 a p)) := rfl
  rw [e, sameBit_apply, offDiagBit_apply, uitofp_bit]
  unfold Cert.Spec.pos
  by_cases h1 : y (ix1 a) = y (ix1 p) <;> by_cases h2 : a = p <;> simp [h1, h2]

theorem negTerm_apply (y : Vec Ideal S512 .i32) (a n : Fin 512) : negTerm y (ix2 a n) = Cert.Spec.neg y a n := by
  have e : negTerm y (ix2 a n) = FloatOps.uitofp (F := Ideal) .f32 (~~~(sameBit y (ix2 a n))) := rfl
  rw [e, sameBit_apply, uitofp_bit]
  unfold Cert.Spec.neg
  by_cases h1 : y (ix1 a) = y (ix1 n) <;> simp [h1]

/-- A row sum of a 512x512 array from the zero word is the sum of the row's entries. -/
private theorem rowSum_apply (x : Vec Ideal S512x512 .f32) (a : Fin 512) :
    Host.reduceAdd x (constant (F := Ideal) S_ .f32 0x00000000#32) reducesTo_S512x512_S512_d1 h_S_ (ix1 a)
      = ∑ p : Fin 512, x (ix2 a p) := by
  simp only [Host.reduceAdd, Ideal.hostReduceAdd_def]
  rw [Ideal.hostReduceAdd_single reducesTo_S512x512_S512_d1 (by decide),
    show (constant (F := Ideal) S_ .f32 0x00000000#32) (Shape.Idx.first h_S_) = 0 from Ideal.ofBits_zero_f32, zero_add]
  exact Finset.sum_congr rfl fun k _ => congrArg x (funext fun d => Fin.ext (by match d with | ⟨0, _⟩ => rfl | ⟨1, _⟩ => rfl))

/-- A 512-vector's indices are its coordinates. -/
private def idx1Equiv : S512.Idx ≃ Fin 512 where
  toFun i := i 0
  invFun a := ix1 a
  left_inv i := (eq_ix1 i).symm
  right_inv _ := rfl

/-- The sum of a 512-vector from the zero word is the sum of its entries. -/
private theorem vecSum_apply (x : Vec Ideal S512 .f32) (i : S_.Idx) :
    Host.reduceAdd x (constant (F := Ideal) S_ .f32 0x00000000#32) reducesTo_S512_S_d0 h_S_ i
      = ∑ a : Fin 512, x (ix1 a) := by
  simp only [Host.reduceAdd, Ideal.hostReduceAdd_def]
  rw [Ideal.hostReduceAdd_total reducesTo_S512_S_d0 (fun b => b.elim0),
    show (constant (F := Ideal) S_ .f32 0x00000000#32) (Shape.Idx.first h_S_) = 0 from Ideal.ofBits_zero_f32, zero_add]
  exact Fintype.sum_equiv idx1Equiv x (fun a => x (ix1 a)) (fun i => congrArg x (eq_ix1 i))

theorem countTerm_apply (y : Vec Ideal S512 .i32) (i : S_.Idx) :
    countTerm y i = Cert.Spec.count (Cert.Spec.pos y) (Cert.Spec.neg y) := by
  unfold countTerm Cert.Spec.count
  rw [vecSum_apply]
  refine Finset.sum_congr rfl fun a _ => ?_
  show _ * _ = _
  rw [rowSum_apply, rowSum_apply]
  simp only [posTerm_apply, negTerm_apply]

/-! ## The host stretches from any contents -/

variable (W : Valuation τ sig (Elt Ideal))

/-- The labels as the host stretch finds them. -/
abbrev labels : Vec Ideal S512 .i32 := W (Proc.devRef .tc main_arg2)

theorem after1_v13 (a p : Fin 512) :
    (StableHlo.after hostOps1 W (Proc.devRef .tc main_v13) : Vec Ideal S512x512 .f32) (ix2 a p) = Cert.Spec.pos (labels W) a p := by
  have e : (StableHlo.after hostOps1 W (Proc.devRef .tc main_v13) : Vec Ideal S512x512 .f32) = posTerm (labels W) := by
    after_results
    rfl
  rw [e]
  exact posTerm_apply (labels W) a p

theorem after1_v15 (a n : Fin 512) :
    (StableHlo.after hostOps1 W (Proc.devRef .tc main_v15) : Vec Ideal S512x512 .f32) (ix2 a n) = Cert.Spec.neg (labels W) a n := by
  have e : (StableHlo.after hostOps1 W (Proc.devRef .tc main_v15) : Vec Ideal S512x512 .f32) = negTerm (labels W) := by
    after_results
    rfl
  rw [e]
  exact negTerm_apply (labels W) a n

theorem after1_v19 (i : S_.Idx) :
    (StableHlo.after hostOps1 W (Proc.devRef .tc main_v19) : Vec Ideal S_ .f32) i
      = Cert.Spec.count (Cert.Spec.pos (labels W)) (Cert.Spec.neg (labels W)) := by
  have e : (StableHlo.after hostOps1 W (Proc.devRef .tc main_v19) : Vec Ideal S_ .f32) = countTerm (labels W) := by
    after_results
    rfl
  rw [e]
  exact countTerm_apply (labels W) i

theorem after2_v22 (i : S_.Idx) :
    (StableHlo.after hostOps2 W (Proc.devRef .tc main_v22) : Vec Ideal S_ .f32) i
      = Ideal.div ((W (Proc.devRef .tc main_v20) : Vec Ideal S1x1 .f32) (ix2 0 0)) ((W (Proc.devRef .tc main_v19) : Vec Ideal S_ .f32) ix0) := by
  have e : (StableHlo.after hostOps2 W (Proc.devRef .tc main_v22) : Vec Ideal S_ .f32)
      = (Host.divf (F := Ideal) (φ := .f32) (shapeCast S_ (W (Proc.devRef .tc main_v20) : Vec Ideal S1x1 .f32) shapeCasts_S1x1_S_ : Vec Ideal S_ .f32)
          (W (Proc.devRef .tc main_v19) : Vec Ideal S_ .f32) : Vec Ideal S_ .f32) := by
    after_results
    rfl
  rw [e]
  have hc : shapeCast S_ (W (Proc.devRef .tc main_v20) : Vec Ideal S1x1 .f32) shapeCasts_S1x1_S_ i
      = (W (Proc.devRef .tc main_v20) : Vec Ideal S1x1 .f32) (ix2 0 0) :=
    shapeCast_apply _ shapeCasts_S1x1_S_ i (ix2 0 0) (by
      have h1 : (S1x1.rowMajor (ix2 0 0)).val < 1 := (S1x1.rowMajor (ix2 0 0)).isLt
      have h2 : (S_.rowMajor i).val < 1 := (S_.rowMajor i).isLt
      omega)
  rw [← hc, eq_ix0 i]
  rfl

end Cert.KernelIdeal.HandValue

end
-- ==== Proof.KI.Value.lean ====
/-
  The idealized kernel program's result: run to the end, the scalar it returns is the specification's mean
  loss of the launch's feature matrix and labels, and the arguments end as launched. The distance matrix the
  first kernel leaves is the specification's distances; the host stretch's masks and count are the
  specification's; the second kernel's accumulator after its last point is the sum of all 128 blocks' sums,
  which is the total over the cube of triplets; the closing division makes the mean.
-/
import proofs.«134549_j42193758716072_1_alg».proof.Proof.KI.Run
import proofs.«134549_j42193758716072_1_alg».proof.Proof.KI.ArrAt
import proofs.«134549_j42193758716072_1_alg».proof.Proof.KI.Acc
import proofs.«134549_j42193758716072_1_alg».proof.Proof.KI.Val0
import proofs.«134549_j42193758716072_1_alg».proof.Proof.KI.ValHost
import proofs.«134549_j42193758716072_1_alg».proof.Proof.SpecAlgebra

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.HandValue

variable (m : (ℓ : Loc nD τ sig) → Buf (Elt Ideal) ℓ) (ρ : Dev nD → PrngReg)

/-- The launch's feature matrix and labels on core c. -/
abbrev feat (c : Dev nD) : Vec Ideal S512x256 .f32 := m ((c : Thread nD τ).loc main_arg0)
abbrev lab (c : Dev nD) : Vec Ideal S512 .i32 := m ((c : Thread nD τ).loc main_arg2)

/-- The distance matrix the second kernel finds is the specification's. -/
theorem Dm_eq (c : Dev nD) : Dm (Ve2 m) c = Cert.Spec.dist (feat m c) := by
  funext a p
  unfold Dm
  have e1 : (Ve2 m c main_v0 : Vec Ideal S512x512 .f32) = (out0_1 (F := Ideal) (feat m c) : Vec Ideal S512x512 .f32) := by
    show W2 m c (Proc.devRef .tc main_v0) = _
    refine (StableHlo.after_of_writes_sub hostOps1 _ hostOps1_writes (by decide)).trans ?_
    refine (W1_v0 m c).trans ?_
    exact arrAt0_out (Ve0 m) c
  rw [e1, out0_1_eq]
  exact k0_pay1_dist (feat m c) a p

theorem labels_W1 (c : Dev nD) : labels (W1 m c) = lab m c := W1_of_ne m c main_arg2 (by decide)

/-- The two masks the second kernel finds are the specification's. -/
theorem Pm_eq (c : Dev nD) : Pm (Ve2 m) c = Cert.Spec.pos (lab m c) := by
  funext a p
  unfold Pm
  exact (after1_v13 (W1 m c) a p).trans (by rw [labels_W1])
theorem Nm_eq (c : Dev nD) : Nm (Ve2 m) c = Cert.Spec.neg (lab m c) := by
  funext a n
  unfold Nm
  exact (after1_v15 (W1 m c) a n).trans (by rw [labels_W1])

/-- The total the second kernel leaves is the specification's total. -/
theorem total_eq (c : Dev nD) :
    (W3 m c (Proc.devRef .tc main_v20) : Vec Ideal S1x1 .f32) (ix2 0 0)
      = Cert.Spec.total (Cert.Spec.dist (feat m c)) (Cert.Spec.pos (lab m c)) (Cert.Spec.neg (lab m c)) := by
  rw [W3_v20, arrAt1_out (Ve2 m) c,
    outsAt1_acc (Ve2 m) c (fun h0 => outsAt1_zero (Ve2 m) c h0) (fun n hn => outsAt1_succ (Ve2 m) c n hn) 127 _ (ix2 0 0),
    Cert.Spec.accTo_128, Dm_eq, Pm_eq, Nm_eq]

/-- The count the host stretch leaves is the specification's count, and the second kernel does not touch it. -/
theorem count_eq (c : Dev nD) :
    (W3 m c (Proc.devRef .tc main_v19) : Vec Ideal S_ .f32) ix0
      = Cert.Spec.count (Cert.Spec.pos (lab m c)) (Cert.Spec.neg (lab m c)) := by
  rw [W3_of_ne m c main_v19 (by decide)]
  exact (after1_v19 (W1 m c) ix0).trans (by rw [labels_W1])

/-- The result buffer at the end holds the specification's mean loss. -/
theorem W4_result (c : Dev nD) :
    (W4 m c (Proc.devRef .tc main_v22) : Vec Ideal S_ .f32) = fun _ => Cert.Spec.loss (feat m c) (lab m c) := by
  funext i
  rw [show (W4 m c (Proc.devRef .tc main_v22) : Vec Ideal S_ .f32) i = _ from after2_v22 (W3 m c) i, total_eq, count_eq]
  rfl

/-- THE VALUE RUN at the ideal instance: the result is the mean loss, the arguments end as launched. -/
theorem run_value : θ_run defs (onTc (τ := τ) (main (F := Ideal))) ⟨m, fun _ => 0, ρ⟩ (fun r => ∀ c : Dev nD,
      r.2.mem ((c.tc : Thread nD τ).loc main_v22) = (fun _ => Cert.Spec.loss (feat m c) (lab m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v22 (by decide))).trans (W4_result m c),
     (h c _ (mem_uc main_arg0 (by decide))).trans (W4_of_unwritten m c main_arg0 (by decide) (by decide) (by decide) (by decide)),
     (h c _ (mem_uc main_arg1 (by decide))).trans (W4_of_unwritten m c main_arg1 (by decide) (by decide) (by decide) (by decide)),
     (h c _ (mem_uc main_arg2 (by decide))).trans (W4_of_unwritten m c main_arg2 (by decide) (by decide) (by decide) (by decide))⟩) (run_all m ρ)

end Cert.KernelIdeal.Hand

end
-- ==== Proof.IntCount.lean ====
/-
  A host sum of 32-bit words that are each 0 or 1, over all 512^3 positions of a rank-3 array: the count
  is below 2^27, so the wrapping sum does not wrap, and read as a signed integer and then as a real it is
  the number of ones.
-/
import Idealize.ShloMosaic.PureOps.Ideal
import Idealize.ShloMosaic.PureOps.Ideal.Laws
import Idealize.ShloMosaic.PureOps.BitExact.Laws
import Idealize.ShloMosaic.Lib.ValueIdx
import Idealize.ShloMosaic.Lib.ReduceAll

noncomputable section

namespace Cert.IntCount

open Idealize.ShloMosaic Idealize.ShloMosaic.ValueIdx

abbrev S3 : Shape := ⟨3, ![512, 512, 512]⟩
abbrev S0 : Shape := ⟨0, ![]⟩

/-- The real-to-extended-real coercion commutes with a finite sum. -/
theorem coe_sum {ι : Type} (S : Finset ι) (f : ι → ℝ) :
    ((∑ j ∈ S, f j : ℝ) : EReal) = ∑ j ∈ S, ((f j : ℝ) : EReal) := by
  induction S using Finset.cons_induction with
  | empty => simp
  | cons a S ha ih => rw [Finset.sum_cons, Finset.sum_cons, EReal.coe_add, ih]

/-- A word that is 0 or 1 has value at most one. -/
theorem toNat_le_one (b : BitVec 32) (h : b = 0#32 ∨ b = 1#32) : b.toNat ≤ 1 := by
  rcases h with rfl | rfl <;> simp

/-- The wrapping sum, from 0, of 0/1 words over a set of fewer than 2^32 positions does not wrap: its
    value is the natural-number sum of the words' values, which is at most the number of positions. -/
theorem fold_addi_toNat {ι : Type} (v : ι → BitVec 32) (hv : ∀ j, v j = 0#32 ∨ v j = 1#32) (S : Finset ι) :
    S.card < 2 ^ 32 →
      ((S.fold IntOp.addi 0#32 v).toNat = ∑ j ∈ S, (v j).toNat ∧ ∑ j ∈ S, (v j).toNat ≤ S.card) := by
  induction S using Finset.cons_induction with
  | empty => intro _; simp
  | cons a S ha ih =>
    intro hc
    rw [Finset.card_cons] at hc
    obtain ⟨e, hle⟩ := ih (by omega)
    have h1 := toNat_le_one (v a) (hv a)
    rw [Finset.fold_cons, Finset.sum_cons, Finset.card_cons]
    refine ⟨?_, by omega⟩
    show (v a + S.fold IntOp.addi 0#32 v).toNat = _
    rw [BitVec.toNat_add, e, Nat.mod_eq_of_lt (by omega)]

/-- The array has 2^27 positions. -/
theorem card_idx : (Finset.univ : Finset S3.Idx).card = 2 ^ 27 := by
  rw [Finset.card_univ, Shape.card_idx]
  simp [Shape.numel, Fin.prod_univ_succ]

/-- The host's wrapping integer sum of 0/1 words over the whole array, converted to a float at the ideal
    instance, is the real number of ones. -/
theorem sitofp_reduce_addi (v : S3.Idx → BitVec 32) (hv : ∀ j, v j = 0#32 ∨ v j = 1#32)
    (hred : S3.ReducesTo [0, 1, 2] S0) (h0 : 0 < S0.numel) (i : S0.Idx) :
    FloatOps.sitofp (F := Ideal) .f32 (Host.reduce IntOp.addi v (constantI S0 32 0#32) hred h0 i)
      = ∑ j : S3.Idx, (((v j).toNat : ℝ) : EReal) := by
  have hS : (Finset.univ.filter fun j : S3.Idx => hred.drop j = i) = Finset.univ :=
    Finset.filter_true_of_mem fun j _ => funext fun a => a.elim0
  obtain ⟨e, hle⟩ := fold_addi_toNat v hv Finset.univ (by rw [card_idx]; norm_num)
  rw [card_idx] at hle
  rw [Host.reduce_eq_fold, hS]
  show ((((Finset.univ : Finset S3.Idx).fold IntOp.addi 0#32 v).toInt : ℝ) : EReal) = _
  have hi : ((Finset.univ : Finset S3.Idx).fold IntOp.addi 0#32 v).toInt
      = ((∑ j : S3.Idx, (v j).toNat : ℕ) : ℤ) := by
    rw [← e, BitVec.toInt_eq_toNat_cond, if_pos (by rw [e]; omega)]
  rw [hi, ← coe_sum, Int.cast_natCast, Nat.cast_sum]

end Cert.IntCount

end
-- ==== Proof.RefDist.lean ====
/-
  The reference's distance matrix, read off its run one operation at a time, is the specification's
  clamped Euclidean distance: row sums of squares, the matrix product with the transpose, twice it
  subtracted, the clamp, the square root.
-/
import proofs.«134549_j42193758716072_1_alg».proof.Defs
import proofs.«134549_j42193758716072_1_alg».proof.Proof.Gen.ReferenceIdeal.Run
import proofs.«134549_j42193758716072_1_alg».proof.Proof.Gen.ReferenceIdeal.Read
import proofs.«134549_j42193758716072_1_alg».proof.Proof.Spec

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

/-- The row broadcast reads column 0 of the 512x1 array, which reads entry i of the row sums. -/
private theorem idx_v4 (i j : Fin 512) : idx_main_v4 (ix2 i j) = ix2 i (0 : Fin 1) :=
  funext fun a => Fin.ext (by match a with | ⟨0, _⟩ => rfl | ⟨1, _⟩ => rfl)
private theorem idx_v2 (i : Fin 512) (z : Fin 1) : idx_main_v2 (ix2 i z) = ix1 i :=
  funext fun a => Fin.ext (by match a with | ⟨0, _⟩ => rfl)
/-- The column broadcast reads row 0 of the 1x512 array, which reads entry j of the row sums. -/
private theorem idx_v5 (i j : Fin 512) : idx_main_v5 (ix2 i j) = ix2 (0 : Fin 1) j :=
  funext fun a => Fin.ext (by match a with | ⟨0, _⟩ => rfl | ⟨1, _⟩ => rfl)
private theorem idx_v3 (z : Fin 1) (j : Fin 512) : idx_main_v3 (ix2 z j) = ix1 j :=
  funext fun a => Fin.ext (by match a with | ⟨0, _⟩ => rfl)
/-- Term k of row i's sum of squares is entry (i, k). -/
private theorem idx_v1 (i : Fin 512) (k : Fin 256) : idx_main_v1 (ix1 i) k = ix2 i k :=
  funext fun a => Fin.ext (by match a with | ⟨0, _⟩ => rfl | ⟨1, _⟩ => rfl)
/-- Term k of the matrix product's entry (i, j): the left factor is entry (i, k), the right one entry (k, j) of
    the transpose, that is entry (j, k) of the matrix. -/
private theorem lidx_v8 (i j : Fin 512) (k : Fin 256) : lidx_main_v8 (ix2 i j) k = ix2 i k :=
  funext fun a => Fin.ext (by match a with | ⟨0, _⟩ => rfl | ⟨1, _⟩ => rfl)
private theorem ridx_v8 (i j : Fin 512) (k : Fin 256) : ridx_main_v8 (ix2 i j) k = ix2 k j :=
  funext fun a => Fin.ext (by match a with | ⟨0, _⟩ => rfl | ⟨1, _⟩ => rfl)
private theorem idx_v7 (k : Fin 256) (j : Fin 512) : idx_main_v7 (ix2 k j) = ix2 j k :=
  funext fun a => Fin.ext (by match a with | ⟨0, _⟩ => rfl | ⟨1, _⟩ => rfl)

/-- Entry i of the reference's row sums of squares is the specification's squared length of row i. -/
private theorem val_main_v1_sqn (x0 : (⟨S512x256, .f32⟩ : BufTy).Contents (Elt Ideal)) (i : Fin 512) :
    val_main_v1 (F := Ideal) x0 (ix1 i) = Cert.Spec.sqn x0 i := by
  rw [val_main_v1_apply, val_main_cst_apply]
  simp only [val_main_v0_apply, idx_v1, Ideal.ofBits_def, Ideal.mulf_def, Ideal.ofBits_zero_f32, zero_add]
  rfl

/-- Entry (i, j) of the reference's matrix product is the specification's inner product of rows i and j. -/
private theorem val_main_v8_gram (x0 : (⟨S512x256, .f32⟩ : BufTy).Contents (Elt Ideal)) (i j : Fin 512) :
    val_main_v8 (F := Ideal) x0 (ix2 i j) = Cert.Spec.gram x0 i j := by
  rw [val_main_v8_apply]
  simp only [val_main_v7_apply, lidx_v8, ridx_v8, idx_v7]
  rfl

/-- Entry (i, j) of the reference's distance matrix is the specification's distance of rows i and j. -/
theorem val_main_v14_dist (x0 : (⟨S512x256, .f32⟩ : BufTy).Contents (Elt Ideal)) (i j : Fin 512) :
    val_main_v14 (F := Ideal) x0 (ix2 i j) = Cert.Spec.dist x0 i j := by
  rw [val_main_v14_apply, val_main_v13_apply, val_main_v11_apply, val_main_v6_apply, val_main_v10_apply,
    val_main_v4_apply, val_main_v5_apply, val_main_v2_apply, val_main_v3_apply, val_main_v9_apply,
    val_main_v12_apply, val_main_cst_0_apply, val_main_cst_1_apply,
    idx_v4, idx_v5, idx_v2, idx_v3, val_main_v1_sqn, val_main_v1_sqn, val_main_v8_gram]
  simp only [Ideal.hostUnary_sqrt_def, Ideal.maximumf_def, Ideal.subf_def, Ideal.addf_def, Ideal.mulf_def,
    Ideal.ofBits_def]
  rfl

end Cert.ReferenceIdeal.RefValue

end
-- ==== Proof.RefValue.lean ====
/-
  The reference's result, read off its run one operation at a time, is the specification's mean loss:
  the distances by the row sums and the matrix product, the masks by the label comparisons, the selected
  logistic terms summed over the cube of triplets, divided by the number of valid triplets (a wrapping
  integer sum that does not wrap).
-/
import proofs.«134549_j42193758716072_1_alg».proof.Defs
import proofs.«134549_j42193758716072_1_alg».proof.Proof.Gen.ReferenceIdeal.Run
import proofs.«134549_j42193758716072_1_alg».proof.Proof.Gen.ReferenceIdeal.Read
import proofs.«134549_j42193758716072_1_alg».proof.Proof.Spec
import proofs.«134549_j42193758716072_1_alg».proof.Proof.SpecAlgebra
import proofs.«134549_j42193758716072_1_alg».proof.Proof.IntCount
import proofs.«134549_j42193758716072_1_alg».proof.Proof.RefDist
import Idealize.ShloMosaic.Lib.IdealHost

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

/-- One-bit words: a conjunction is set exactly when both are. -/
theorem andi_eq_one_iff (x y : BitVec 1) : IntOp.andi x y = 1#1 ↔ x = 1#1 ∧ y = 1#1 := by
  rcases BitVec.eq_zero_or_eq_one x with rfl | rfl <;> rcases BitVec.eq_zero_or_eq_one y with rfl | rfl <;> decide

/-- One-bit words: a complement is set exactly when the word is not. -/
theorem not_eq_one_iff (x : BitVec 1) : ~~~x = 1#1 ↔ ¬ x = 1#1 := by
  rcases BitVec.eq_zero_or_eq_one x with rfl | rfl <;> decide

/-- The equality comparison of two words is set exactly when they are equal. -/
theorem cmpi_eq_one_iff {w : Nat} (x y : BitVec w) : IntOp.cmpi .eq x y = 1#1 ↔ x = y := by
  show BitVec.ofBool (x == y) = 1#1 ↔ x = y
  rw [← beq_iff_eq (a := x) (b := y)]
  generalize (x == y) = b
  cases b <;> decide

/-- The label comparison at (a, p) compares the labels of a and p. -/
theorem v19_at (x2 : (⟨S512, .i32⟩ : BufTy).Contents (Elt Ideal)) (a p : Fin 512) :
    val_main_v19 (F := Ideal) x2 (ix2 a p) = IntOp.cmpi .eq (x2 (ix1 a)) (x2 (ix1 p)) := by
  rw [val_main_v19_apply, val_main_v17_apply, val_main_v15_apply, val_main_v18_apply, val_main_v16_apply]
  have e1 : idx_main_v15 (idx_main_v17 (ix2 a p)) = ix1 a := funext fun d => by match d with | ⟨0, _⟩ => rfl
  have e2 : idx_main_v16 (idx_main_v18 (ix2 a p)) = ix1 p := funext fun d => by match d with | ⟨0, _⟩ => rfl
  rw [e1, e2]

/-- The diagonal comparison at (a, p) compares the two positions. -/
theorem v24_at (a p : Fin 512) :
    val_main_v24 (F := Ideal) (ix2 a p) = 1#1 ↔ a = p := by
  rw [val_main_v24_apply, val_main_v23_apply, val_main_v20_apply, val_main_v22_apply, val_main_c_apply, val_main_v21_apply,
    cmpi_eq_one_iff]
  show BitVec.ofNat 32 a.val + 0#32 = BitVec.ofNat 32 p.val ↔ a = p
  rw [BitVec.add_zero]
  constructor
  · intro h
    have := congrArg BitVec.toNat h
    simp only [BitVec.toNat_ofNat] at this
    have ha := a.isLt; have hp := p.isLt
    exact Fin.ext (by omega)
  · rintro rfl; rfl

/-- The positive mask at (a, p): one label, different rows. -/
theorem v26_at (x2 : (⟨S512, .i32⟩ : BufTy).Contents (Elt Ideal)) (a p : Fin 512) :
    val_main_v26 (F := Ideal) x2 (ix2 a p) = 1#1 ↔ (x2 (ix1 a) = x2 (ix1 p) ∧ a ≠ p) := by
  rw [val_main_v26_apply, andi_eq_one_iff, val_main_v25_apply, not_eq_one_iff, v24_at, v19_at, cmpi_eq_one_iff]

/-- The negative mask at (a, n): the labels differ. -/
theorem v27_at (x2 : (⟨S512, .i32⟩ : BufTy).Contents (Elt Ideal)) (a n : Fin 512) :
    val_main_v27 (F := Ideal) x2 (ix2 a n) = 1#1 ↔ ¬ x2 (ix1 a) = x2 (ix1 n) := by
  rw [val_main_v27_apply, not_eq_one_iff, v19_at, cmpi_eq_one_iff]

/-- The triplet mask at (a, p, n) is set exactly on the valid triplets. -/
theorem v32_at (x2 : (⟨S512, .i32⟩ : BufTy).Contents (Elt Ideal)) (a p n : Fin 512) :
    val_main_v32 (F := Ideal) x2 (ix3 a p n) = 1#1 ↔ Cert.Spec.Valid x2 a p n := by
  rw [val_main_v32_apply, andi_eq_one_iff, val_main_v30_apply, val_main_v28_apply, val_main_v31_apply, val_main_v29_apply]
  have e1 : idx_main_v28 (idx_main_v30 (ix3 a p n)) = ix2 a p :=
    funext fun d => by match d with | ⟨0, _⟩ => rfl | ⟨1, _⟩ => rfl
  have e2 : idx_main_v29 (idx_main_v31 (ix3 a p n)) = ix2 a n :=
    funext fun d => by match d with | ⟨0, _⟩ => rfl | ⟨1, _⟩ => rfl
  rw [e1, e2, v26_at, v27_at]
  rfl

/-- The scaled distance difference at (a, p, n). -/
theorem v39_at (x0 : (⟨S512x256, .f32⟩ : BufTy).Contents (Elt Ideal)) (a p n : Fin 512) :
    val_main_v39 (F := Ideal) x0 (ix3 a p n)
      = Ideal.ofBits .f32 0x41200000#32 * (Cert.Spec.dist x0 a p - Cert.Spec.dist x0 a n) := by
  rw [val_main_v39_apply, val_main_v38_apply, val_main_cst_2_apply, val_main_v37_apply, val_main_v35_apply,
    val_main_v33_apply, val_main_v36_apply, val_main_v34_apply]
  have e1 : idx_main_v33 (idx_main_v35 (ix3 a p n)) = ix2 a p :=
    funext fun d => by match d with | ⟨0, _⟩ => rfl | ⟨1, _⟩ => rfl
  have e2 : idx_main_v34 (idx_main_v36 (ix3 a p n)) = ix2 a n :=
    funext fun d => by match d with | ⟨0, _⟩ => rfl | ⟨1, _⟩ => rfl
  rw [e1, e2, val_main_v14_dist, val_main_v14_dist]
  rfl

/-- The quotient one over one plus the exponential of the negation is the logistic function. -/
theorem v45_at (x0 : (⟨S512x256, .f32⟩ : BufTy).Contents (Elt Ideal)) (a p n : Fin 512) :
    val_main_v45 (F := Ideal) x0 (ix3 a p n)
      = Ideal.logistic (Ideal.ofBits .f32 0x41200000#32 * (Cert.Spec.dist x0 a p - Cert.Spec.dist x0 a n)) := by
  rw [val_main_v45_apply, val_main_v44_apply, val_main_cst_4_apply, val_main_v43_apply, val_main_v42_apply,
    val_main_cst_3_apply, val_main_v41_apply, val_main_v40_apply, v39_at]
  show Ideal.div (Ideal.ofBits .f32 0x3F800000#32) (Ideal.ofBits .f32 0x3F800000#32 + Ideal.exp (-_)) = _
  rw [Ideal.ofBits_one_f32]
  rfl

/-- The selected term at (a, p, n) is the specification's weighted loss of the triplet. -/
theorem v46_at (x0 : (⟨S512x256, .f32⟩ : BufTy).Contents (Elt Ideal)) (x2 : (⟨S512, .i32⟩ : BufTy).Contents (Elt Ideal))
    (a p n : Fin 512) :
    val_main_v46 (F := Ideal) x0 x2 (ix3 a p n)
      = Cert.Spec.term (Cert.Spec.dist x0) (Cert.Spec.pos x2) (Cert.Spec.neg x2) a p n := by
  rw [val_main_v46_apply, Cert.Spec.term_eq_ite, val_main_call0_v1_apply, val_main_call0_v0_apply, val_main_cst_5_apply,
    v45_at]
  by_cases h : Cert.Spec.Valid x2 a p n
  · rw [if_pos h, (v32_at x2 a p n).mpr h, select_one]
  · rw [if_neg h, eq_zero_of_ne_one (mt (v32_at x2 a p n).mp h), select_zero]
    exact Ideal.ofBits_zero_f32

/-- The float sum over the cube of triplets is the specification's total. -/
theorem v47_eq (x0 : (⟨S512x256, .f32⟩ : BufTy).Contents (Elt Ideal)) (x2 : (⟨S512, .i32⟩ : BufTy).Contents (Elt Ideal))
    (i : S_.Idx) :
    val_main_v47 (F := Ideal) x0 x2 i
      = Cert.Spec.total (Cert.Spec.dist x0) (Cert.Spec.pos x2) (Cert.Spec.neg x2) := by
  rw [val_main_v47_apply, val_main_cst_6_apply, Ideal.ofBits_def, Ideal.ofBits_zero_f32, zero_add]
  refine (Cert.Spec.sum_idx3 _).trans ?_
  unfold Cert.Spec.total
  exact Finset.sum_congr rfl fun a _ => Finset.sum_congr rfl fun p _ => Finset.sum_congr rfl fun n _ =>
    v46_at x0 x2 a p n

/-- The wrapping integer count of the mask, read as a float, is the specification's count: the sum of 0/1 words
    over 2^27 positions does not wrap. -/
theorem v50_eq (x2 : (⟨S512, .i32⟩ : BufTy).Contents (Elt Ideal)) (i : S_.Idx) :
    val_main_v50 (F := Ideal) x2 i = Cert.Spec.count (Cert.Spec.pos x2) (Cert.Spec.neg x2) := by
  rw [val_main_v50_apply, Cert.Spec.count_eq_sum_ite]
  unfold val_main_v49
  refine (Cert.IntCount.sitofp_reduce_addi (val_main_v48 (F := Ideal) x2) ?_ reducesTo_S512x512x512_S_d0_1_2 h_S_ i).trans ?_
  · intro j
    rw [val_main_v48_apply]
    rcases BitVec.eq_zero_or_eq_one (val_main_v32 (F := Ideal) x2 j) with h | h <;> rw [h]
    · exact Or.inl rfl
    · exact Or.inr rfl
  · refine (Cert.Spec.sum_idx3 _).trans ?_
    refine Finset.sum_congr rfl fun a _ => Finset.sum_congr rfl fun p _ => Finset.sum_congr rfl fun n _ => ?_
    rw [val_main_v48_apply]
    by_cases h : Cert.Spec.Valid x2 a p n
    · rw [if_pos h, (v32_at x2 a p n).mpr h]
      show (((1 : ℕ) : ℝ) : EReal) = 1
      rw [Nat.cast_one, EReal.coe_one]
    · rw [if_neg h, eq_zero_of_ne_one (mt (v32_at x2 a p n).mp h)]
      show (((0 : ℕ) : ℝ) : EReal) = 0
      rw [Nat.cast_zero, EReal.coe_zero]

/-- The reference's result, as a function of the feature matrix and the labels, is the specification's loss. -/
theorem result_eq (x0 : (⟨S512x256, .f32⟩ : BufTy).Contents (Elt Ideal)) (x2 : (⟨S512, .i32⟩ : BufTy).Contents (Elt Ideal)) :
    val_main_v51 (F := Ideal) x0 x2 = fun _ => Cert.Spec.loss x0 x2 := by
  funext i
  rw [val_main_v51_apply, v47_eq, v50_eq]
  rfl

end Cert.ReferenceIdeal.RefValue

end
-- ==== Proof.lean ====
/-
  The certificate: a Pallas triplet-loss kernel against its jnp reference, over the extended reals.

  Both programs compute, for a feature matrix and a label vector, the mean over the valid triplets
  (anchor a, positive p ≠ a of the anchor's label, negative n of another label) of
  logistic (10 * (dist a p - dist a n)), where dist is the Euclidean distance clamped below at 1e-12.
  The kernel program runs two pallas_calls: the first writes the whole distance matrix from the row
  sums of squares and one matrix product; the second walks the cube of triplets in 128 blocks of
  64 x 128 x 128, multiplying each logistic term by the product of the two 0/1 masks and adding each
  block's sum into a 1 x 1 accumulator that it resets at the first block; the host divides by the count
  of valid triplets, computed separably as the sum over anchors of (number of positives) times (number
  of negatives). The reference selects the valid terms of the full cube, sums them, and divides by the
  integer count of the mask. On the extended reals a finite sum may be regrouped freely, multiplying by a
  0/1 mask is selecting, the separable count is the triple count (distributivity of finite 0/1 sums,
  through the reals), and the wrapping integer count of at most 2^27 ones does not wrap: so both results
  are the specification's loss (Proof/Spec.lean), and the two idealized programs agree.
  The three frames: each kernel region's body is run at every grid point, the distance matrix being read
  by the second kernel through two windows at half shares; the reference is a straight line of host
  operations.
-/
import proofs.«134549_j42193758716072_1_alg».proof.Defs
import proofs.«134549_j42193758716072_1_alg».proof.Proof.Gen.Kernel
import proofs.«134549_j42193758716072_1_alg».proof.Proof.Gen.KernelIdeal
import proofs.«134549_j42193758716072_1_alg».proof.Proof.Gen.ReferenceIdeal
import proofs.«134549_j42193758716072_1_alg».proof.Proof.Gen.Pre_finite_inputs
import proofs.«134549_j42193758716072_1_alg».proof.Proof.Gen.ReferenceIdeal.Run
import proofs.«134549_j42193758716072_1_alg».proof.Proof.Gen.ReferenceIdeal.Read
import proofs.«134549_j42193758716072_1_alg».proof.Proof.K.Run
import proofs.«134549_j42193758716072_1_alg».proof.Proof.KI.Run
import proofs.«134549_j42193758716072_1_alg».proof.Proof.KI.Value
import proofs.«134549_j42193758716072_1_alg».proof.Proof.RefValue
import Idealize.ShloMosaic.Adequacy
import Idealize.ShloMosaic.Init

noncomputable section

namespace Cert.Proof

open Idealize.ShloMosaic Idealize.SL.Sem

/-- The word-level kernel program runs to the end and leaves its arguments as launched. -/
theorem frame_k : Cert.frame_Kernel := fun m ρ _ => Cert.Kernel.Hand.frame m ρ

/-- So does the idealized kernel program. -/
theorem frame_ki : Cert.frame_KernelIdeal := fun m ρ _ => Cert.KernelIdeal.Hand.frame m ρ

/-- The reference is a straight line of host operations: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end at the specification's mean loss of
    the feature matrix and the labels. -/
theorem algebraic : Cert.algebraic_KernelIdeal_ReferenceIdeal := by
  intro m ρ m' ρ' _ hagree
  refine ⟨_, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v51_eq, Cert.ReferenceIdeal.RefValue.result_eq, (hagree c).1, (hagree c).2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
